-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v9_1)) (v3 : (c : Dev Cert.KernelIdeal.nD) → Buf (Elt Ideal) ((c.tc : Thread Cert.KernelIdeal.nD Cert.KernelIdeal.τ).loc Cert.KernelIdeal.main_v9_2)) (v4 : (c : Dev Cert.KernelIdeal.nD) → Buf (Elt Ideal) ((c.tc : Thread Cert.KernelIdeal.nD Cert.KernelIdeal.τ).loc Cert.KernelIdeal.main_v10_1)) (v5 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_v9_2) = v3 c
          ∧ r.2.mem ((c.tc : Thread Cert.KernelIdeal.nD Cert.KernelIdeal.τ).loc Cert.KernelIdeal.main_v10_1) = v4 c
          ∧ r.2.mem ((c.tc : Thread Cert.KernelIdeal.nD Cert.KernelIdeal.τ).loc Cert.KernelIdeal.main_v10_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_v59) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x4096 : Shape := ⟨2, ![2048, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg11 : FVec F S4096x1024 .f32) (main_arg12 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S4096x1024 .f32 := Host.absf main_arg11
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  main_v63

def fn_part2 {F : FTy → Type} [FloatOps F] (main_arg7 : FVec F S4096x4096 .f32) (main_arg8 : FVec F S1024x4096 .f32) (main_arg9 : FVec F S4096x1024 .f32) (main_arg10 : FVec F S1024x1024 .f32) (main_arg11 : FVec F S4096x1024 .f32) (main_arg12 : FVec F S1024x1024 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S1024x4096 .f32 := Host.absf main_arg8
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_v48 main_v49 main_v50

def fn_part1 {F : FTy → Type} [FloatOps F] (main_arg4 : FVec F S2048x1024 .f32) (main_arg5 : FVec F S2048x4096 .f32) (main_arg6 : FVec F S2048x1024 .f32) (main_arg7 : FVec F S4096x4096 .f32) (main_arg8 : FVec F S1024x4096 .f32) (main_arg9 : FVec F S4096x1024 .f32) (main_arg10 : FVec F S1024x1024 .f32) (main_arg11 : FVec F S4096x1024 .f32) (main_arg12 : FVec F S1024x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2048x1024 .f32) (main_arg1 : FVec F S2048x4096 .f32) (main_arg2 : FVec F S2048x4096 .f32) (main_arg3 : FVec F S2048x1024 .f32) (main_arg4 : FVec F S2048x1024 .f32) (main_arg5 : FVec F S2048x4096 .f32) (main_arg6 : FVec F S2048x1024 .f32) (main_arg7 : FVec F S4096x4096 .f32) (main_arg8 : FVec F S1024x4096 .f32) (main_arg9 : FVec F S4096x1024 .f32) (main_arg10 : FVec F S1024x1024 .f32) (main_arg11 : FVec F S4096x1024 .f32) (main_arg12 : FVec F S1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_arg11 main_arg12 main_v13 main_v16
-- ==== Kernel.lean ====
abbrev S2048x1024 : Shape := ⟨2, ![2048, 1024]⟩
abbrev S2048x4096 : Shape := ⟨2, ![2048, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S256x4096 : Shape := ⟨2, ![256, 4096]⟩

abbrev nBuf : Space → Nat
  | .hbm => 28
  | .vmem => 38
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S2048x1024, .f32⟩
  | .hbm, ⟨4, _⟩ => ⟨S2048x1024, .f32⟩
  | .hbm, ⟨5, _⟩ => ⟨S2048x4096, .f32⟩
  | .hbm, ⟨6, _⟩ => ⟨S2048x1024, .f32⟩
  | .hbm, ⟨7, _⟩ => ⟨S4096x4096, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S2048x1024, .bf16⟩
  | .hbm, ⟨14, _⟩ => ⟨S2048x4096, .bf16⟩
  | .hbm, ⟨15, _⟩ => ⟨S2048x1024, .bf16⟩
  | .hbm, ⟨16, _⟩ => ⟨S4096x4096, .bf16⟩
  | .hbm, ⟨17, _⟩ => ⟨S4096x1024, .bf16⟩
  | .hbm, ⟨18, _⟩ => ⟨S1024x4096, .bf16⟩
  | .hbm, ⟨19, _⟩ => ⟨S1024x1024, .bf16⟩
  | .hbm, ⟨20, _⟩ => ⟨S4096x1024, .bf16⟩
  | .hbm, ⟨21, _⟩ => ⟨S1024x1024, .bf16⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x1024, .f32⟩
  | .hbm, ⟨26, _⟩ => ⟨S2048x1024, .f32⟩
  | .hbm, ⟨27, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x4096, .bf16⟩
  | .local _ .vmem, ⟨3, _⟩ => ⟨S256x4096, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x4096, .bf16⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x4096, .bf16⟩
  | .local _ .vmem, ⟨22, _⟩ => ⟨S256x4096, .bf16⟩
  | .local _ .vmem, ⟨23, _⟩ => ⟨S256x1024, .bf16⟩
  | .local _ .vmem, ⟨24, _⟩ => ⟨S256x1024, .bf16⟩
  | .local _ .vmem, ⟨25, _⟩ => ⟨S1024x1024, .bf16⟩
  | .local _ .vmem, ⟨26, _⟩ => ⟨S1024x4096, .bf16⟩
  | .local _ .vmem, ⟨27, _⟩ => ⟨S1024x1024, .bf16⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  natLt_1_32 : 1 < 32
  dot_S256x1024_S1024x1024_S256x1024_1_1_0_0_n_n_wf : DotDims.WF S256x1024 S1024x1024 S256x1024 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .bf16 = 32 ∨ (Rect.block (s := S2048x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .bf16 = 32 ∨ (Rect.block (s := S2048x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .bf16 = 32 ∨ (Rect.block (s := S2048x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S4096x4096.size a
  hwx0_4 : ∀ i : grid0.Coords, EltTy.bits .bf16 = 32 ∨ (Rect.block (s := S4096x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x1024.size a
  hwx0_5 : ∀ i : grid0.Coords, EltTy.bits .bf16 = 32 ∨ (Rect.block (s := S4096x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S2048x4096.size a
  hwx0_6 : ∀ i : grid0.Coords, EltTy.bits .f32 = 32 ∨ (Rect.block (s := S2048x4096) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S2048x4096.size a
  hwx0_7 : ∀ i : grid0.Coords, EltTy.bits .f32 = 32 ∨ (Rect.block (s := S2048x4096) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S2048x4096.size a
  hwx0_8 : ∀ i : grid0.Coords, EltTy.bits .f32 = 32 ∨ (Rect.block (s := S2048x4096) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S2048x4096.size a
  hwx0_9 : ∀ i : grid0.Coords, EltTy.bits .f32 = 32 ∨ (Rect.block (s := S2048x4096) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S2048x4096.size a
  hwx0_10 : ∀ i : grid0.Coords, EltTy.bits .f32 = 32 ∨ (Rect.block (s := S2048x4096) S256x1024.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S2048x1024.size a
  hwx1_0 : ∀ i : grid1.Coords, EltTy.bits .bf16 = 32 ∨ (Rect.block (s := S2048x1024) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S2048x4096.size a
  hwx1_1 : ∀ i : grid1.Coords, EltTy.bits .bf16 = 32 ∨ (Rect.block (s := S2048x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S2048x1024.size a
  hwx1_2 : ∀ i : grid1.Coords, EltTy.bits .bf16 = 32 ∨ (Rect.block (s := S2048x1024) S256x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x4096.size a ≤ S1024x4096.size a
  hwx1_4 : ∀ i : grid1.Coords, EltTy.bits .bf16 = 32 ∨ (Rect.block (s := S1024x4096) S1024x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .bf16 = 32 ∨ (Rect.block (s := S1024x1024) S1024x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S2048x1024.size a
  hwx1_6 : ∀ i : grid1.Coords, EltTy.bits .f32 = 32 ∨ (Rect.block (s := S2048x1024) S256x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x1024.size a ≤ S2048x1024.size a
  hwx1_7 : ∀ i : grid1.Coords, EltTy.bits .f32 = 32 ∨ (Rect.block (s := S2048x1024) S256x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x1024.size a ≤ S2048x1024.size a
  hwx1_8 : ∀ i : grid1.Coords, EltTy.bits .f32 = 32 ∨ (Rect.block (s := S2048x1024) S256x1024.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1024.size a ≤ S2048x1024.size a
  hwx1_9 : ∀ i : grid1.Coords, EltTy.bits .f32 = 32 ∨ (Rect.block (s := S2048x1024) S256x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x1024.size a ≤ S2048x1024.size a
  hwx1_10 : ∀ i : grid1.Coords, EltTy.bits .f32 = 32 ∨ (Rect.block (s := S2048x1024) S256x1024.size (cc1_transform_10 i) (hinb1_10 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S256x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_2) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S256x1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg4) S256x1024.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v10_0) S256x1024.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v10_1) S256x1024.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v10_2) S256x1024.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S2048x1024 : Shape := ⟨2, ![2048, 1024]⟩
abbrev S2048x4096 : Shape := ⟨2, ![2048, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x4096, .f32⟩
  | .hbm, ⟨3, _⟩ => ⟨S2048x1024, .f32⟩
  | .hbm, ⟨4, _⟩ => ⟨S2048x1024, .f32⟩
  | .hbm, ⟨5, _⟩ => ⟨S2048x4096, .f32⟩
  | .hbm, ⟨6, _⟩ => ⟨S2048x1024, .f32⟩
  | .hbm, ⟨7, _⟩ => ⟨S4096x4096, .f32⟩
  | .hbm, ⟨8, _⟩ => ⟨S1024x4096, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S1024x1024, .f32⟩
  | .hbm, ⟨13, _⟩ => ⟨S1024x4096, .f32⟩
  | .hbm, ⟨14, _⟩ => ⟨S2048x4096, .f32⟩
  | .hbm, ⟨15, _⟩ => ⟨S1024x1024, .f32⟩
  | .hbm, ⟨16, _⟩ => ⟨S2048x1024, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S2048x4096, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S1024x4096, .f32⟩
  | .hbm, ⟨26, _⟩ => ⟨S2048x4096, .f32⟩
  | .hbm, ⟨27, _⟩ => ⟨S2048x4096, .f32⟩
  | .hbm, ⟨28, _⟩ => ⟨S_, .f32⟩
  | .hbm, ⟨29, _⟩ => ⟨S1024x4096, .f32⟩
  | .hbm, ⟨30, _⟩ => ⟨S1024x4096, .f32⟩
  | .hbm, ⟨31, _⟩ => ⟨S4096x1024, .f32⟩
  | .hbm, ⟨32, _⟩ => ⟨S2048x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S2048x1024, .f32⟩
  | .hbm, ⟨38, _⟩ => ⟨S2048x1024, .f32⟩
  | .hbm, ⟨39, _⟩ => ⟨S2048x4096, .f32⟩
  | .hbm, ⟨40, _⟩ => ⟨S2048x1024, .f32⟩
  | .hbm, ⟨41, _⟩ => ⟨S_, .f32⟩
  | .hbm, ⟨42, _⟩ => ⟨S2048x4096, .f32⟩
  | .hbm, ⟨43, _⟩ => ⟨S2048x4096, .f32⟩
  | .hbm, ⟨44, _⟩ => ⟨S2048x4096, .f32⟩
  | .hbm, ⟨45, _⟩ => ⟨S_, .f32⟩
  | .hbm, ⟨46, _⟩ => ⟨S2048x4096, .f32⟩
  | .hbm, ⟨47, _⟩ => ⟨S2048x4096, .f32⟩
  | .hbm, ⟨48, _⟩ => ⟨S2048x4096, .f32⟩
  | .hbm, ⟨49, _⟩ => ⟨S_, .f32⟩
  | .hbm, ⟨50, _⟩ => ⟨S2048x4096, .f32⟩
  | .hbm, ⟨51, _⟩ => ⟨S2048x4096, .f32⟩
  | .hbm, ⟨52, _⟩ => ⟨S_, .f32⟩
  | .hbm, ⟨53, _⟩ => ⟨S2048x4096, .f32⟩
  | .hbm, ⟨54, _⟩ => ⟨S2048x4096, .f32⟩
  | .hbm, ⟨55, _⟩ => ⟨S_, .f32⟩
  | .hbm, ⟨56, _⟩ => ⟨S2048x4096, .f32⟩
  | .hbm, ⟨57, _⟩ => ⟨S2048x4096, .i1⟩
  | .hbm, ⟨58, _⟩ => ⟨S2048x4096, .f32⟩
  | .hbm, ⟨59, _⟩ => ⟨S_, .f32⟩
  | .hbm, ⟨60, _⟩ => ⟨S2048x4096, .f32⟩
  | .hbm, ⟨61, _⟩ => ⟨S2048x4096, .f32⟩
  | .hbm, ⟨62, _⟩ => ⟨S2048x4096, .f32⟩
  | .hbm, ⟨63, _⟩ => ⟨S_, .f32⟩
  | .hbm, ⟨64, _⟩ => ⟨S2048x4096, .f32⟩
  | .hbm, ⟨65, _⟩ => ⟨S2048x4096, .f32⟩
  | .hbm, ⟨66, _⟩ => ⟨S2048x4096, .f32⟩
  | .hbm, ⟨67, _⟩ => ⟨S2048x4096, .f32⟩
  | .hbm, ⟨68, _⟩ => ⟨S_, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S_, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048x1024, .f32⟩
  | .hbm, ⟨84, _⟩ => ⟨S2048x1024, .i1⟩
  | .hbm, ⟨85, _⟩ => ⟨S2048x1024, .f32⟩
  | .hbm, ⟨86, _⟩ => ⟨S_, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S_, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_cst : Ref sig .tc := ⟨.hbm, 22, rfl⟩
abbrev main_call1_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call2_cst : Ref sig .tc := ⟨.hbm, 28, rfl⟩
abbrev main_call2_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call3_cst : Ref sig .tc := ⟨.hbm, 33, rfl⟩
abbrev main_call3_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_1 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]

class Facts₀ : Prop where
  transposes_S4096x1024_S1024x4096_1_0 : S4096x1024.Transposes [1, 0] S1024x4096
  transposes_S1024x1024_S1024x1024_1_0 : S1024x1024.Transposes [1, 0] S1024x1024
  bcast_S_S4096x4096 : S_.BroadcastsInDim S4096x4096 (![] : Fin 0 → Fin S4096x4096.rank)
  transposes_S4096x4096_S4096x4096_1_0 : S4096x4096.Transposes [1, 0] S4096x4096
  bcast_S_S4096x1024 : S_.BroadcastsInDim S4096x1024 (![] : Fin 0 → Fin S4096x1024.rank)
  bcast_S_S1024x4096 : S_.BroadcastsInDim S1024x4096 (![] : Fin 0 → Fin S1024x4096.rank)
  transposes_S1024x4096_S4096x1024_1_0 : S1024x4096.Transposes [1, 0] S4096x1024
  bcast_S_S1024x1024 : S_.BroadcastsInDim S1024x1024 (![] : Fin 0 → Fin S1024x1024.rank)
  bcast_S_S2048x4096 : S_.BroadcastsInDim S2048x4096 (![] : Fin 0 → Fin S2048x4096.rank)
  bcast_S_S2048x1024 : S_.BroadcastsInDim S2048x1024 (![] : Fin 0 → Fin S2048x1024.rank)
  dot_S2048x1024_S1024x4096_S2048x4096_1_0_0_1_n_n_wf : DotDims.WF S2048x1024 S1024x4096 S2048x4096 [1] [0] [0] [1] [] []
  dot_S2048x1024_S1024x1024_S2048x1024_1_0_0_1_n_n_wf : DotDims.WF S2048x1024 S1024x1024 S2048x1024 [1] [0] [0] [1] [] []
  dot_S2048x4096_S4096x4096_S2048x4096_1_0_0_1_n_n_wf : DotDims.WF S2048x4096 S4096x4096 S2048x4096 [1] [0] [0] [1] [] []
  dot_S2048x4096_S4096x1024_S2048x1024_1_0_0_1_n_n_wf : DotDims.WF S2048x4096 S4096x1024 S2048x1024 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf
def dot_S2048x4096_S4096x1024_S2048x1024_1_0_0_1_n_n : DotDims S2048x4096 S4096x1024 S2048x1024 where
  lhsContracting := [1]
  rhsContracting := [0]
  lhsNonContracting := [0]
  rhsNonContracting := [1]
  lhsBatch := []
  rhsBatch := []
  wf := dot_S2048x4096_S4096x1024_S2048x1024_1_0_0_1_n_n_wf

class Facts : Prop extends Facts₀ where

variable [Facts]
-- ==== Proof.LifSpec.lean ====
/-
  One step of a leaky integrate-and-fire layer, as a function of the state and input arrays, element by element
  on the extended reals.

  For a neuron with membrane potential `v` and synaptic current `s`:
    decayed  = v + κ · ((0 − v) + s)              the potential after one leak step at rate κ
    spike    = 1 if decayed − 1 > 0, else 0       (the comparison's bit, as a number)
    held     = (1 − spike) · decayed + spike · 0  the potential, reset where the neuron fired
    current  = s · keep + ((ext + exc) − inh)     the decayed current plus the summed drive
  where `ext`, `exc`, `inh` are rows of three matrix products: the external input against its weights, the
  excitatory spikes against the rectified excitatory weights, the inhibitory spikes against the rectified
  inhibitory weights. A product's entry at (r, n) is the sum over k of X[r, k] · W[n, k]: both matrices are
  contracted along their second axis.

  Two small laws join the two ways the programs spell this. The bit of a comparison read as a number is the same
  whether a one-bit word is read unsigned or widened to 32 bits and read signed (`spike_unsigned`). And the drive
  may be grouped either way, (a + b) − c = a + (b − c), since addition on the extended reals is associative and
  subtraction is addition of the negative (`current_regroup`): no finiteness is needed.
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.Lif

open Idealize.ShloMosaic Idealize.ShloMosaic.ValueIdx

/-- The float words the two programs share, read as extended reals: they are never evaluated, only zero is. -/
abbrev zero32 : EReal := Ideal.ofBits .f32 0x00000000#32
abbrev one32 : EReal := Ideal.ofBits .f32 0x3F800000#32
abbrev keep : EReal := Ideal.ofBits .f32 0x3F4CCCCD#32
abbrev rateE : EReal := Ideal.ofBits .f32 0x3D4CCCCD#32
abbrev rateI : EReal := Ideal.ofBits .f32 0x3DCCCCCD#32

/-- The membrane potential after one leak step at rate `κ`. -/
def decayed (κ v s : EReal) : EReal := v + κ * ((zero32 - v) + s)

/-- Whether the potential `u` is over the threshold 1: the comparison's one bit. -/
def fired (u : EReal) : BitVec 1 := Ideal.cmp .ogt (u - one32) zero32

/-- That bit as a number: widened to 32 bits and read signed. -/
def spike (u : EReal) : EReal := ((((fired u).setWidth 32).toInt : ℝ) : EReal)

/-- A one-bit word widened to 32 bits and read signed is the word read unsigned. -/
theorem toInt_setWidth_one : ∀ b : BitVec 1, (b.setWidth 32).toInt = (b.toNat : ℤ) := by decide

/-- The same number, the bit read unsigned. -/
theorem spike_unsigned (u : EReal) : spike u = ((((fired u).toNat : ℝ)) : EReal) := by
  unfold spike
  rw [toInt_setWidth_one]
  norm_cast

/-- The potential kept where the neuron did not fire, reset to zero where it did. -/
def held (u : EReal) : EReal := (one32 - spike u) * u + spike u * zero32

/-- The new synaptic current: the old one decayed plus the drive, the drive grouped as (ext + exc) − inh. -/
def current (s ext exc inh : EReal) : EReal := s * keep + ((ext + exc) - inh)

/-- The drive grouped the other way is the same extended real. -/
theorem current_regroup (s ext exc inh : EReal) : s * keep + (ext + (exc - inh)) = current s ext exc inh := by
  unfold current
  rw [sub_eq_add_neg, sub_eq_add_neg, add_assoc]

/-- The entry (r, n) of X · Wᵀ: both operands contracted along their second axis. -/
def rowDot {B N K : Nat} (X : (⟨2, ![B, K]⟩ : Shape).Idx → EReal) (W : (⟨2, ![N, K]⟩ : Shape).Idx → EReal)
    (r : Fin B) (n : Fin N) : EReal :=
  ∑ k : Fin K, X (ix2 r k) * W (ix2 n k)

/-- The same against the rectified weights max(W, 0). -/
def rowDotRelu {B N K : Nat} (X : (⟨2, ![B, K]⟩ : Shape).Idx → EReal) (W : (⟨2, ![N, K]⟩ : Shape).Idx → EReal)
    (r : Fin B) (n : Fin N) : EReal :=
  ∑ k : Fin K, X (ix2 r k) * max (W (ix2 n k)) 0

/-- The spikes of a population, from its potentials `V` and currents `S`. -/
def spikes {B N : Nat} (κ : EReal) (V S : (⟨2, ![B, N]⟩ : Shape).Idx → EReal) : (⟨2, ![B, N]⟩ : Shape).Idx → EReal :=
  fun i => spike (decayed κ (V i) (S i))

/-- Its new potentials. -/
def potentials {B N : Nat} (κ : EReal) (V S : (⟨2, ![B, N]⟩ : Shape).Idx → EReal) : (⟨2, ![B, N]⟩ : Shape).Idx → EReal :=
  fun i => held (decayed κ (V i) (S i))

/-- Its new currents: input `X` against `Win`, excitatory spikes `SE` against the rectified `WE`, inhibitory
    spikes `SI` against the rectified `WI`, added to the decayed old current `S`. -/
def currents {B N D NE NI : Nat} (X : (⟨2, ![B, D]⟩ : Shape).Idx → EReal) (SE : (⟨2, ![B, NE]⟩ : Shape).Idx → EReal)
    (SI : (⟨2, ![B, NI]⟩ : Shape).Idx → EReal) (Win : (⟨2, ![N, D]⟩ : Shape).Idx → EReal)
    (WE : (⟨2, ![N, NE]⟩ : Shape).Idx → EReal) (WI : (⟨2, ![N, NI]⟩ : Shape).Idx → EReal)
    (S : (⟨2, ![B, N]⟩ : Shape).Idx → EReal) : (⟨2, ![B, N]⟩ : Shape).Idx → EReal :=
  fun i => current (S i) (rowDot X Win (i 0) (i 1)) (rowDotRelu SE WE (i 0) (i 1)) (rowDotRelu SI WI (i 0) (i 1))

end Cert.Lif

end
-- ==== Proof.RefSide.lean ====
/-
  The reference program is the specification.

  The reference writes its six results as chains of whole-array operations. Read at one index, each chain is a
  term in the entries of the inputs at that index, and that term is the specification's, definition by definition:

    spikes      the comparison (v + κ·((0 − v) + s)) − 1 > 0, its bit read as a number;
    potentials  (1 − spike)·u + spike·0 at the decayed potential u;
    currents    s·keep + (ext + (exc − inh)), the three drives being matrix products.

  What is not a mere unfolding: the reference reads the comparison's bit unsigned (the specification widens it and
  reads it signed: the same number), it groups the drive as ext + (exc − inh) (the specification as
  (ext + exc) − inh: associativity), it rectifies the weights against the float word of zero (which is the extended
  real 0), and it multiplies against the TRANSPOSED weight matrix, so that the right factor at (k, n) of the
  transpose is the weight at (n, k): the product's entry at (r, n) is the sum over k of X[r, k] · W[n, k].
-/
import proofs.«128312_j18176301596897_1_alg».proof.Proof.Gen.ReferenceIdeal.Read
import proofs.«128312_j18176301596897_1_alg».proof.Proof.LifSpec

noncomputable section

open scoped BigOperators

namespace Cert.ReferenceIdeal.RefValue

open Cert.ReferenceIdeal Cert.ReferenceIdeal.Read Idealize.ShloMosaic Idealize.ShloMosaic.ValueIdx

/-! ### The element-wise results -/

/-- The excitatory spikes: at every index the reference's chain is the comparison of the decayed potential minus
    one against zero, its bit read unsigned. -/
theorem spikesE_eq (x1 x2 : (⟨S2048x4096, .f32⟩ : BufTy).Contents (Elt Ideal)) :
    val_main_v32 (F := Ideal) x1 x2 = Cert.Lif.spikes Cert.Lif.rateE x1 x2 := by
  funext i
  rw [val_main_v32_apply, val_main_v31_apply, val_main_v29_apply, val_main_v25_apply, val_main_v24_apply,
    val_main_v23_apply, val_main_cst_0_apply, val_main_v22_apply, val_main_v21_apply, val_main_v20_apply,
    val_main_cst_apply, val_main_v28_apply, val_main_cst_2_apply, val_main_v30_apply, val_main_cst_3_apply]
  unfold Cert.Lif.spikes
  rw [Cert.Lif.spike_unsigned]
  rfl

/-- The inhibitory spikes: the same chain at the inhibitory rate. -/
theorem spikesI_eq (x3 x4 : (⟨S2048x1024, .f32⟩ : BufTy).Contents (Elt Ideal)) :
    val_main_v52 (F := Ideal) x3 x4 = Cert.Lif.spikes Cert.Lif.rateI x3 x4 := by
  funext i
  rw [val_main_v52_apply, val_main_v51_apply, val_main_v49_apply, val_main_v45_apply, val_main_v44_apply,
    val_main_v43_apply, val_main_cst_7_apply, val_main_v42_apply, val_main_v41_apply, val_main_v40_apply,
    val_main_cst_6_apply, val_main_v48_apply, val_main_cst_9_apply, val_main_v50_apply, val_main_cst_10_apply]
  unfold Cert.Lif.spikes
  rw [Cert.Lif.spike_unsigned]
  rfl

/-- The new excitatory potentials: (1 − spike) · u + spike · 0 at the decayed potential u, the spike being the
    same comparison bit as above. -/
theorem potentialsE_eq (x1 x2 : (⟨S2048x4096, .f32⟩ : BufTy).Contents (Elt Ideal)) :
    val_main_v38 (F := Ideal) x1 x2 = Cert.Lif.potentials Cert.Lif.rateE x1 x2 := by
  funext i
  rw [val_main_v38_apply, val_main_v35_apply, val_main_v37_apply, val_main_v34_apply, val_main_v33_apply,
    val_main_cst_4_apply, val_main_v36_apply, val_main_cst_5_apply,
    val_main_v32_apply, val_main_v31_apply, val_main_v29_apply, val_main_v25_apply, val_main_v24_apply,
    val_main_v23_apply, val_main_cst_0_apply, val_main_v22_apply, val_main_v21_apply, val_main_v20_apply,
    val_main_cst_apply, val_main_v28_apply, val_main_cst_2_apply, val_main_v30_apply, val_main_cst_3_apply]
  unfold Cert.Lif.potentials Cert.Lif.held
  rw [Cert.Lif.spike_unsigned]
  rfl

/-- The new inhibitory potentials. -/
theorem potentialsI_eq (x3 x4 : (⟨S2048x1024, .f32⟩ : BufTy).Contents (Elt Ideal)) :
    val_main_v58 (F := Ideal) x3 x4 = Cert.Lif.potentials Cert.Lif.rateI x3 x4 := by
  funext i
  rw [val_main_v58_apply, val_main_v55_apply, val_main_v57_apply, val_main_v54_apply, val_main_v53_apply,
    val_main_cst_11_apply, val_main_v56_apply, val_main_cst_12_apply,
    val_main_v52_apply, val_main_v51_apply, val_main_v49_apply, val_main_v45_apply, val_main_v44_apply,
    val_main_v43_apply, val_main_cst_7_apply, val_main_v42_apply, val_main_v41_apply, val_main_v40_apply,
    val_main_cst_6_apply, val_main_v48_apply, val_main_cst_9_apply, val_main_v50_apply, val_main_cst_10_apply]
  unfold Cert.Lif.potentials Cert.Lif.held
  rw [Cert.Lif.spike_unsigned]
  rfl

/-! ### The matrix products

  Each product contracts the left matrix's second axis with the first axis of a transposed matrix. At the output
  entry (r, n) and the summation index k the left factor is read at (r, k); the right factor is read from the
  transpose at (k, n), which is the untransposed matrix at (n, k). For the recurrent products the matrix transposed
  is the element-wise maximum of the weights and the zero word, so the right factor is max(W[n, k], 0). -/

/-- The input drive of the excitatory population, entry (r, n): the sum over k of X[r, k] · Win[n, k]. -/
theorem inputDriveE (x0 : (⟨S2048x1024, .f32⟩ : BufTy).Contents (Elt Ideal)) (x11 : (⟨S4096x1024, .f32⟩ : BufTy).Contents (Elt Ideal)) (i : S2048x4096.Idx) :
    val_main_v1 (F := Ideal) x0 x11 i = Cert.Lif.rowDot x0 x11 (i 0) (i 1) := by
  rw [val_main_v1_apply]
  unfold Cert.Lif.rowDot
  refine Finset.sum_congr rfl fun k _ => ?_
  rw [val_main_v0_apply]
  have el : lidx_main_v1 i k = (ix2 (i 0) k : S2048x1024.Idx) := funext fun a => Fin.ext (by match a with | ⟨0, _⟩ => rfl | ⟨1, _⟩ => rfl)
  have er : idx_main_v0 (ridx_main_v1 i k) = (ix2 (i 1) k : S4096x1024.Idx) := funext fun a => Fin.ext (by match a with | ⟨0, _⟩ => rfl | ⟨1, _⟩ => rfl)
  rw [el, er]

/-- The excitatory drive of the excitatory population, entry (r, n): the sum over k of SE[r, k] · max(WE[n, k], 0). -/
theorem excDriveE (x5 : (⟨S2048x4096, .f32⟩ : BufTy).Contents (Elt Ideal)) (x7 : (⟨S4096x4096, .f32⟩ : BufTy).Contents (Elt Ideal)) (i : S2048x4096.Idx) :
    val_main_v6 (F := Ideal) x5 x7 i = Cert.Lif.rowDotRelu x5 x7 (i 0) (i 1) := by
  rw [val_main_v6_apply]
  unfold Cert.Lif.rowDotRelu
  refine Finset.sum_congr rfl fun k _ => ?_
  rw [val_main_v5_apply, val_main_v4_apply, val_main_call0_v0_apply, val_main_call0_cst_apply]
  have el : lidx_main_v6 i k = (ix2 (i 0) k : S2048x4096.Idx) := funext fun a => Fin.ext (by match a with | ⟨0, _⟩ => rfl | ⟨1, _⟩ => rfl)
  have er : idx_main_v5 (ridx_main_v6 i k) = (ix2 (i 1) k : S4096x4096.Idx) := funext fun a => Fin.ext (by match a with | ⟨0, _⟩ => rfl | ⟨1, _⟩ => rfl)
  rw [el, er]
  show _ * max _ (Ideal.ofBits .f32 0x00000000#32) = _
  rw [Ideal.ofBits_zero_f32]

/-- The inhibitory drive of the excitatory population, entry (r, n): the sum over k of SI[r, k] · max(WI[n, k], 0). -/
theorem inhDriveE (x6 : (⟨S2048x1024, .f32⟩ : BufTy).Contents (Elt Ideal)) (x9 : (⟨S4096x1024, .f32⟩ : BufTy).Contents (Elt Ideal)) (i : S2048x4096.Idx) :
    val_main_v9 (F := Ideal) x6 x9 i = Cert.Lif.rowDotRelu x6 x9 (i 0) (i 1) := by
  rw [val_main_v9_apply]
  unfold Cert.Lif.rowDotRelu
  refine Finset.sum_congr rfl fun k _ => ?_
  rw [val_main_v8_apply, val_main_v7_apply, val_main_call1_v0_apply, val_main_call1_cst_apply]
  have el : lidx_main_v9 i k = (ix2 (i 0) k : S2048x1024.Idx) := funext fun a => Fin.ext (by match a with | ⟨0, _⟩ => rfl | ⟨1, _⟩ => rfl)
  have er : idx_main_v8 (ridx_main_v9 i k) = (ix2 (i 1) k : S4096x1024.Idx) := funext fun a => Fin.ext (by match a with | ⟨0, _⟩ => rfl | ⟨1, _⟩ => rfl)
  rw [el, er]
  show _ * max _ (Ideal.ofBits .f32 0x00000000#32) = _
  rw [Ideal.ofBits_zero_f32]

/-- The input drive of the inhibitory population. -/
theorem inputDriveI (x0 : (⟨S2048x1024, .f32⟩ : BufTy).Contents (Elt Ideal)) (x12 : (⟨S1024x1024, .f32⟩ : BufTy).Contents (Elt Ideal)) (i : S2048x1024.Idx) :
    val_main_v3 (F := Ideal) x0 x12 i = Cert.Lif.rowDot x0 x12 (i 0) (i 1) := by
  rw [val_main_v3_apply]
  unfold Cert.Lif.rowDot
  refine Finset.sum_congr rfl fun k _ => ?_
  rw [val_main_v2_apply]
  have el : lidx_main_v3 i k = (ix2 (i 0) k : S2048x1024.Idx) := funext fun a => Fin.ext (by match a with | ⟨0, _⟩ => rfl | ⟨1, _⟩ => rfl)
  have er : idx_main_v2 (ridx_main_v3 i k) = (ix2 (i 1) k : S1024x1024.Idx) := funext fun a => Fin.ext (by match a with | ⟨0, _⟩ => rfl | ⟨1, _⟩ => rfl)
  rw [el, er]

/-- The excitatory drive of the inhibitory population. -/
theorem excDriveI (x5 : (⟨S2048x4096, .f32⟩ : BufTy).Contents (Elt Ideal)) (x8 : (⟨S1024x4096, .f32⟩ : BufTy).Contents (Elt Ideal)) (i : S2048x1024.Idx) :
    val_main_v13 (F := Ideal) x5 x8 i = Cert.Lif.rowDotRelu x5 x8 (i 0) (i 1) := by
  rw [val_main_v13_apply]
  unfold Cert.Lif.rowDotRelu
  refine Finset.sum_congr rfl fun k _ => ?_
  rw [val_main_v12_apply, val_main_v11_apply, val_main_call2_v0_apply, val_main_call2_cst_apply]
  have el : lidx_main_v13 i k = (ix2 (i 0) k : S2048x4096.Idx) := funext fun a => Fin.ext (by match a with | ⟨0, _⟩ => rfl | ⟨1, _⟩ => rfl)
  have er : idx_main_v12 (ridx_main_v13 i k) = (ix2 (i 1) k : S1024x4096.Idx) := funext fun a => Fin.ext (by match a with | ⟨0, _⟩ => rfl | ⟨1, _⟩ => rfl)
  rw [el, er]
  show _ * max _ (Ideal.ofBits .f32 0x00000000#32) = _
  rw [Ideal.ofBits_zero_f32]

/-- The inhibitory drive of the inhibitory population. -/
theorem inhDriveI (x6 : (⟨S2048x1024, .f32⟩ : BufTy).Contents (Elt Ideal)) (x10 : (⟨S1024x1024, .f32⟩ : BufTy).Contents (Elt Ideal)) (i : S2048x1024.Idx) :
    val_main_v16 (F := Ideal) x6 x10 i = Cert.Lif.rowDotRelu x6 x10 (i 0) (i 1) := by
  rw [val_main_v16_apply]
  unfold Cert.Lif.rowDotRelu
  refine Finset.sum_congr rfl fun k _ => ?_
  rw [val_main_v15_apply, val_main_v14_apply, val_main_call3_v0_apply, val_main_call3_cst_apply]
  have el : lidx_main_v16 i k = (ix2 (i 0) k : S2048x1024.Idx) := funext fun a => Fin.ext (by match a with | ⟨0, _⟩ => rfl | ⟨1, _⟩ => rfl)
  have er : idx_main_v15 (ridx_main_v16 i k) = (ix2 (i 1) k : S1024x1024.Idx) := funext fun a => Fin.ext (by match a with | ⟨0, _⟩ => rfl | ⟨1, _⟩ => rfl)
  rw [el, er]
  show _ * max _ (Ideal.ofBits .f32 0x00000000#32) = _
  rw [Ideal.ofBits_zero_f32]

/-! ### The new currents -/

/-- The new excitatory currents: the old current times the keep factor, plus the three drives, which the reference
    groups as ext + (exc − inh). -/
theorem currentsE_eq (x0 : (⟨S2048x1024, .f32⟩ : BufTy).Contents (Elt Ideal)) (x2 x5 : (⟨S2048x4096, .f32⟩ : BufTy).Contents (Elt Ideal)) (x6 : (⟨S2048x1024, .f32⟩ : BufTy).Contents (Elt Ideal))
    (x7 : (⟨S4096x4096, .f32⟩ : BufTy).Contents (Elt Ideal)) (x9 x11 : (⟨S4096x1024, .f32⟩ : BufTy).Contents (Elt Ideal)) :
    val_main_v39 (F := Ideal) x0 x2 x5 x6 x7 x9 x11 = Cert.Lif.currents x0 x5 x6 x11 x7 x9 x2 := by
  funext i
  rw [val_main_v39_apply, val_main_v27_apply, val_main_v26_apply, val_main_cst_1_apply, val_main_v18_apply,
    val_main_v10_apply, inputDriveE, excDriveE, inhDriveE]
  exact Cert.Lif.current_regroup _ _ _ _

/-- The new inhibitory currents. -/
theorem currentsI_eq (x0 x4 : (⟨S2048x1024, .f32⟩ : BufTy).Contents (Elt Ideal)) (x5 : (⟨S2048x4096, .f32⟩ : BufTy).Contents (Elt Ideal)) (x6 : (⟨S2048x1024, .f32⟩ : BufTy).Contents (Elt Ideal))
    (x8 : (⟨S1024x4096, .f32⟩ : BufTy).Contents (Elt Ideal)) (x10 x12 : (⟨S1024x1024, .f32⟩ : BufTy).Contents (Elt Ideal)) :
    val_main_v59 (F := Ideal) x0 x4 x5 x6 x8 x10 x12 = Cert.Lif.currents x0 x5 x6 x12 x8 x10 x4 := by
  funext i
  rw [val_main_v59_apply, val_main_v47_apply, val_main_v46_apply, val_main_cst_8_apply, val_main_v19_apply,
    val_main_v17_apply, inputDriveI, excDriveI, inhDriveI]
  exact Cert.Lif.current_regroup _ _ _ _

end Cert.ReferenceIdeal.RefValue

end
-- ==== Proof.KernelBoundary.lean ====
/-
  What each region finds in the arrays it reads.

  Before the first region @main narrows nine of its arguments to the 16-bit format; at the ideal instance a change of
  format is the identity, so each narrowed array holds its argument's extended reals. The first region finds the
  potentials and currents of the excitatory population as launched. The second region is entered at what the first
  leaves: the arrays the first region only reads are as it found them, the arrays it does not touch are as the host
  operations left them, and the inhibitory population's potentials and currents are as launched.
-/
import proofs.«128312_j18176301596897_1_alg».proof.Proof.Gen.KernelIdeal.Frame
import Idealize.ShloMosaic.Lib.StableHlo.Run
import Idealize.ShloMosaic.PureOps.Ideal

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first region's entry: each narrowed array is its argument -/

theorem entry_main_v0 (c : Dev nD) : (V1 m ρ c main_v0 : Vec Ideal S2048x1024 .bf16) = m ((c : Thread nD τ).loc main_arg0) := by
  show StableHlo.after (hostOps0 (F := Ideal)) (W0 m ρ c) (Proc.devRef .tc main_v0) = _
  after_results
  rfl

theorem entry_main_v1 (c : Dev nD) : (V1 m ρ c main_v1 : Vec Ideal S2048x4096 .bf16) = m ((c : Thread nD τ).loc main_arg5) := by
  show StableHlo.after (hostOps0 (F := Ideal)) (W0 m ρ c) (Proc.devRef .tc main_v1) = _
  after_results
  rfl

theorem entry_main_v2 (c : Dev nD) : (V1 m ρ c main_v2 : Vec Ideal S2048x1024 .bf16) = m ((c : Thread nD τ).loc main_arg6) := by
  show StableHlo.after (hostOps0 (F := Ideal)) (W0 m ρ c) (Proc.devRef .tc main_v2) = _
  after_results
  rfl

theorem entry_main_v3 (c : Dev nD) : (V1 m ρ c main_v3 : Vec Ideal S4096x4096 .bf16) = m ((c : Thread nD τ).loc main_arg7) := by
  show StableHlo.after (hostOps0 (F := Ideal)) (W0 m ρ c) (Proc.devRef .tc main_v3) = _
  after_results
  rfl

theorem entry_main_v4 (c : Dev nD) : (V1 m ρ c main_v4 : Vec Ideal S4096x1024 .bf16) = m ((c : Thread nD τ).loc main_arg9) := by
  show StableHlo.after (hostOps0 (F := Ideal)) (W0 m ρ c) (Proc.devRef .tc main_v4) = _
  after_results
  rfl

theorem entry_main_v5 (c : Dev nD) : (V1 m ρ c main_v5 : Vec Ideal S1024x4096 .bf16) = m ((c : Thread nD τ).loc main_arg8) := by
  show StableHlo.after (hostOps0 (F := Ideal)) (W0 m ρ c) (Proc.devRef .tc main_v5) = _
  after_results
  rfl

theorem entry_main_v6 (c : Dev nD) : (V1 m ρ c main_v6 : Vec Ideal S1024x1024 .bf16) = m ((c : Thread nD τ).loc main_arg10) := by
  show StableHlo.after (hostOps0 (F := Ideal)) (W0 m ρ c) (Proc.devRef .tc main_v6) = _
  after_results
  rfl

theorem entry_main_v7 (c : Dev nD) : (V1 m ρ c main_v7 : Vec Ideal S4096x1024 .bf16) = m ((c : Thread nD τ).loc main_arg11) := by
  show StableHlo.after (hostOps0 (F := Ideal)) (W0 m ρ c) (Proc.devRef .tc main_v7) = _
  after_results
  rfl

theorem entry_main_v8 (c : Dev nD) : (V1 m ρ c main_v8 : Vec Ideal S1024x1024 .bf16) = m ((c : Thread nD τ).loc main_arg12) := by
  show StableHlo.after (hostOps0 (F := Ideal)) (W0 m ρ c) (Proc.devRef .tc main_v8) = _
  after_results
  rfl

/-! ## The excitatory state at the first region's entry, the inhibitory state at the second's: as launched -/

theorem entry_arg1 (c : Dev nD) : V1 m ρ c main_arg1 = m ((c : Thread nD τ).loc main_arg1) :=
  ((W3_of_ne m ρ c main_arg1 (by decide)).trans ((W2_arr m ρ c 6).trans (((dat0 (V1 m ρ) c).arrAt_in 6 rfl _).trans (A_eq0 (V1 m ρ) c 6)))).symm.trans (W3_main_arg1 m ρ c)

theorem entry_arg2 (c : Dev nD) : V1 m ρ c main_arg2 = m ((c : Thread nD τ).loc main_arg2) :=
  ((W3_of_ne m ρ c main_arg2 (by decide)).trans ((W2_arr m ρ c 7).trans (((dat0 (V1 m ρ) c).arrAt_in 7 rfl _).trans (A_eq0 (V1 m ρ) c 7)))).symm.trans (W3_main_arg2 m ρ c)

theorem mid_arg3 (c : Dev nD) : V2 m ρ c main_arg3 = m ((c : Thread nD τ).loc main_arg3) :=
  ((W3_arr m ρ c 6).trans (((dat1 (V2 m ρ) c).arrAt_in 6 rfl _).trans (A_eq1 (V2 m ρ) c 6))).symm.trans (W3_main_arg3 m ρ c)

theorem mid_arg4 (c : Dev nD) : V2 m ρ c main_arg4 = m ((c : Thread nD τ).loc main_arg4) :=
  ((W3_arr m ρ c 7).trans (((dat1 (V2 m ρ) c).arrAt_in 7 rfl _).trans (A_eq1 (V2 m ρ) c 7))).symm.trans (W3_main_arg4 m ρ c)

/-! ## At the second region's entry: the narrowed arrays as the first region found or left them -/

theorem mid_v0 (c : Dev nD) : (V2 m ρ c main_v0 : Vec Ideal S2048x1024 .bf16) = m ((c : Thread nD τ).loc main_arg0) :=
  ((W2_arr m ρ c 0).trans (((dat0 (V1 m ρ) c).arrAt_in 0 rfl _).trans (A_eq0 (V1 m ρ) c 0))).trans (entry_main_v0 m ρ c)

theorem mid_v1 (c : Dev nD) : (V2 m ρ c main_v1 : Vec Ideal S2048x4096 .bf16) = m ((c : Thread nD τ).loc main_arg5) :=
  ((W2_arr m ρ c 1).trans (((dat0 (V1 m ρ) c).arrAt_in 1 rfl _).trans (A_eq0 (V1 m ρ) c 1))).trans (entry_main_v1 m ρ c)

theorem mid_v2 (c : Dev nD) : (V2 m ρ c main_v2 : Vec Ideal S2048x1024 .bf16) = m ((c : Thread nD τ).loc main_arg6) :=
  ((W2_arr m ρ c 2).trans (((dat0 (V1 m ρ) c).arrAt_in 2 rfl _).trans (A_eq0 (V1 m ρ) c 2))).trans (entry_main_v2 m ρ c)

theorem mid_v8 (c : Dev nD) : (V2 m ρ c main_v8 : Vec Ideal S1024x1024 .bf16) = m ((c : Thread nD τ).loc main_arg12) :=
  (W2_of_ne m ρ c main_v8 (by decide)).trans (entry_main_v8 m ρ c)

theorem mid_v5 (c : Dev nD) : (V2 m ρ c main_v5 : Vec Ideal S1024x4096 .bf16) = m ((c : Thread nD τ).loc main_arg8) :=
  (W2_of_ne m ρ c main_v5 (by decide)).trans (entry_main_v5 m ρ c)

theorem mid_v6 (c : Dev nD) : (V2 m ρ c main_v6 : Vec Ideal S1024x1024 .bf16) = m ((c : Thread nD τ).loc main_arg10) :=
  (W2_of_ne m ρ c main_v6 (by decide)).trans (entry_main_v6 m ρ c)

end Cert.KernelIdeal.Boundary

end
-- ==== Proof.KernelDrive.lean ====
/-
  The drive of one block of neurons, read at an entry.

  Each kernel body forms the drive of its 256 × 1024 block from three matrix products into zero accumulators,
  (x · winᵀ + se · max(wee, 0)ᵀ) − si · max(wei, 0)ᵀ, every product contracting the second axis of both operands. At the
  ideal instance a product's entry (p, q) is the plain sum over k of x[p, k] · w[q, k]; the rectification max(w, 0) is taken
  entry by entry against the zero word, which denotes 0. So the drive's entry (p, q) is the specification's
  (rowDot + rowDotRelu) − rowDotRelu of the loaded blocks. The two kernel bodies compute their drive by the same term.
-/
import proofs.«128312_j18176301596897_1_alg».proof.Proof.Gen.KernelIdeal.Skeleton
import proofs.«128312_j18176301596897_1_alg».proof.Proof.LifSpec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.Drive

open Cert.KernelIdeal Cert.KernelIdeal.Gen Idealize.ShloMosaic Idealize.ShloMosaic.ValueIdx

/-! ## Where a product's operands are read: the output's row in the left operand, its column as the right operand's
    row, the contraction index along the second axis of both -/

theorem lhsA_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhsA_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhsA_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhsA_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

theorem lhsB_0 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem lhsB_1 (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
theorem rhsB_0 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem rhsB_1 (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-! ## A product into the zero accumulator at an entry -/

/-- The product over 1024 inputs: entry (p, q) is the sum over k of x[p, k] · w[q, k]. -/
theorem productA_apply (x : FVec Ideal S256x1024 .bf16) (w : FVec Ideal S1024x1024 .bf16) (p : Fin 256) (q : Fin 1024) :
    matmul (F := Ideal) dot_S256x1024_S1024x1024_S256x1024_1_1_0_0_n_n none x w (constant S256x1024 .f32 0x00000000#32) (ix2 p q)
      = ∑ k : Fin 1024, x (ix2 p k) * w (ix2 q k) := by
  show FloatOps.matmul dot_S256x1024_S1024x1024_S256x1024_1_1_0_0_n_n none x w (constant S256x1024 .f32 0x00000000#32) (ix2 p q) = _
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun a => Fin.ext (by
    match a with
    | ⟨0, _⟩ => exact lhsA_0 _ _
    | ⟨1, _⟩ => exact (lhsA_1 _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun a => Fin.ext (by
    match a with
    | ⟨0, _⟩ => exact rhsA_0 _ _
    | ⟨1, _⟩ => exact (rhsA_1 _ _).trans hk)
  rw [el, er]

/-- The product over 4096 inputs: entry (p, q) is the sum over k of x[p, k] · w[q, k]. -/
theorem productB_apply (x : FVec Ideal S256x4096 .bf16) (w : FVec Ideal S1024x4096 .bf16) (p : Fin 256) (q : Fin 1024) :
    matmul (F := Ideal) dot_S256x4096_S1024x4096_S256x1024_1_1_0_0_n_n none x w (constant S256x1024 .f32 0x00000000#32) (ix2 p q)
      = ∑ k : Fin 4096, x (ix2 p k) * w (ix2 q k) := by
  show FloatOps.matmul dot_S256x4096_S1024x4096_S256x1024_1_1_0_0_n_n none x w (constant S256x1024 .f32 0x00000000#32) (ix2 p q) = _
  rw [Ideal.matmul_constant_zero_apply, ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k := funext fun a => Fin.ext (by
    match a with
    | ⟨0, _⟩ => exact lhsB_0 _ _
    | ⟨1, _⟩ => exact (lhsB_1 _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k := funext fun a => Fin.ext (by
    match a with
    | ⟨0, _⟩ => exact rhsB_0 _ _
    | ⟨1, _⟩ => exact (rhsB_1 _ _).trans hk)
  rw [el, er]

/-! ## The drive at an entry -/

/-- The three products combined, at (p, q), over any loaded blocks. -/
theorem drive_core (y0 : FVec Ideal S256x1024 .bf16) (y1 : FVec Ideal S256x4096 .bf16) (y2 : FVec Ideal S256x1024 .bf16)
    (y3 : FVec Ideal S1024x1024 .bf16) (y4 : FVec Ideal S1024x4096 .bf16) (y5 : FVec Ideal S1024x1024 .bf16)
    (p : Fin 256) (q : Fin 1024) :
    subf (addf (matmul (F := Ideal) dot_S256x1024_S1024x1024_S256x1024_1_1_0_0_n_n none y0 y3 (constant S256x1024 .f32 0x00000000#32))
          (matmul (F := Ideal) dot_S256x4096_S1024x4096_S256x1024_1_1_0_0_n_n none y1 (maximumf y4 (broadcast S1024x4096 (Scalar.ofBits .bf16 0x0000#16)))
            (constant S256x1024 .f32 0x00000000#32)))
        (matmul (F := Ideal) dot_S256x1024_S1024x1024_S256x1024_1_1_0_0_n_n none y2 (maximumf y5 (broadcast S1024x1024 (Scalar.ofBits .bf16 0x0000#16)))
            (constant S256x1024 .f32 0x00000000#32)) (ix2 p q)
      = (Cert.Lif.rowDot y0 y3 p q + Cert.Lif.rowDotRelu y1 y4 p q) - Cert.Lif.rowDotRelu y2 y5 p q := by
  rw [subf_apply, addf_apply, productA_apply, productB_apply, productA_apply]
  unfold Cert.Lif.rowDot Cert.Lif.rowDotRelu
  simp only [maximumf_apply, broadcast_apply, Ideal.ofBits_def, Ideal.ofBits_zero_bf16]

/-- The excitatory body's drive at (p, q): the input's product with its weights plus the excitatory spikes' product with
    the rectified weights, minus the inhibitory spikes' product with the rectified weights. -/
theorem drive_apply (x0 : Vec Ideal S256x1024 .bf16) (x1 : Vec Ideal S256x4096 .bf16) (x2 : Vec Ideal S256x1024 .bf16)
    (x3 : Vec Ideal S1024x1024 .bf16) (x4 : Vec Ideal S1024x4096 .bf16) (x5 : Vec Ideal S1024x1024 .bf16)
    (p : Fin 256) (q : Fin 1024) :
    k0_pay4 x0 x1 x2 x3 x4 x5 (ix2 p q)
      = (Cert.Lif.rowDot x0 x3 p q + Cert.Lif.rowDotRelu x1 x4 p q) - Cert.Lif.rowDotRelu x2 x5 p q := by
  unfold k0_pay4
  simp only [shapeCast_self]
  exact drive_core x0 x1 x2 x3 x4 x5 p q

/-- The inhibitory body forms its drive by the same term. -/
theorem drive1_eq : k1_pay4 (F := Ideal) = k0_pay4 (F := Ideal) := rfl

end Cert.KernelIdeal.Drive

end
-- ==== Proof.KernelE.lean ====
/-
  What the excitatory update leaves in its three output arrays.

  The region runs 32 grid points (j, i), j over 4 blocks of 1024 neurons and i over 8 blocks of 256 batch rows, point
  number 8·j + i. At a point the body loads rows [256·i, 256·i + 256) of the input and of the two spike arrays (all
  columns), rows [1024·j, 1024·j + 1024) of the three weight arrays (all columns), and block (i, j) of the potentials and
  currents, and stores block (i, j) of each output. A block's entry y sits in its array at index × size + y on each axis.
  So what a point writes back is its block of ONE function of the whole arrays — the specification's spikes, potentials,
  currents — and since the 32 output blocks tile the 2048 × 4096 arrays, each array ends holding that function.
-/
import proofs.«128312_j18176301596897_1_alg».proof.Proof.Gen.KernelIdeal.Frame
import proofs.«128312_j18176301596897_1_alg».proof.Proof.LifSpec
import proofs.«128312_j18176301596897_1_alg».proof.Proof.KernelDrive
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionE

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid, in closed form: at point t = 8·j + i the row-block windows sit at block (i, 0), the
    weight windows at (j, 0), the state and output windows at (i, j). -/
theorem idx_facts : ∀ t : Fin cfg0.N,
    win0_0.index t (0 : Fin 2) = t.val % 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0
    ∧ win0_6.index t (0 : Fin 2) = t.val % 8 ∧ win0_6.index t (1 : Fin 2) = t.val / 8
    ∧ win0_7.index t (0 : Fin 2) = t.val % 8 ∧ win0_7.index t (1 : Fin 2) = t.val / 8
    ∧ win0_8.index t (0 : Fin 2) = t.val % 8 ∧ win0_8.index t (1 : Fin 2) = t.val / 8
    ∧ win0_9.index t (0 : Fin 2) = t.val % 8 ∧ win0_9.index t (1 : Fin 2) = t.val / 8
    ∧ win0_10.index t (0 : Fin 2) = t.val % 8 ∧ win0_10.index t (1 : Fin 2) = t.val / 8 :=
  (by decide +kernel : ∀ t : Fin grid0.N, _)

/-! ## The element-wise outputs -/

/-- What point t writes back to the spikes array is its block of the specification's spikes of the potentials and currents the region finds. -/
theorem spikes_flushed (c : Dev nD) (t : Fin cfg0.N) :
    (dat0 (F := Ideal) V c).flushed 8 t
      = ((cfg0.win 8).blk t).view.read (Elt Ideal) (Cert.Lif.spikes Cert.Lif.rateE (V c main_arg1) (V c main_arg2)) := by
  show (cfg0.win 8).cut (grid0.coords t) ((dat0 V c).after 8 t) = _
  rw [after0_8]
  unfold out0_8
  rw [View.canon_unit_zero hz]
  simp only [View.ld_unit_zero (S := S256x1024) hz]
  obtain ⟨-, -, -, -, -, -, -, -, -, -, -, -, e60, e61, e70, e71, e80, e81, -, -, -, -⟩ := idx_facts t
  funext j
  show Cert.Lif.spike (Cert.Lif.decayed Cert.Lif.rateE (V c main_arg1 (((cfg0.win 6).blk t).view.emb j)) (V c main_arg2 (((cfg0.win 7).blk t).view.emb j)))
    = Cert.Lif.spike (Cert.Lif.decayed Cert.Lif.rateE (V c main_arg1 (((cfg0.win 8).blk t).view.emb j)) (V c main_arg2 (((cfg0.win 8).blk t).view.emb j)))
  have h6 : ((cfg0.win 6).blk t).view.emb j = ((cfg0.win 8).blk t).view.emb j := by
    funext a; apply Fin.ext
    match a with
    | ⟨0, _⟩ => show win0_6.index t (0 : Fin 2) * 256 + 1 * (j 0).val = win0_8.index t (0 : Fin 2) * 256 + 1 * (j 0).val; omega
    | ⟨1, _⟩ => show win0_6.index t (1 : Fin 2) * 1024 + 1 * (j 1).val = win0_8.index t (1 : Fin 2) * 1024 + 1 * (j 1).val; omega
  have h7 : ((cfg0.win 7).blk t).view.emb j = ((cfg0.win 8).blk t).view.emb j := by
    funext a; apply Fin.ext
    match a with
    | ⟨0, _⟩ => show win0_7.index t (0 : Fin 2) * 256 + 1 * (j 0).val = win0_8.index t (0 : Fin 2) * 256 + 1 * (j 0).val; omega
    | ⟨1, _⟩ => show win0_7.index t (1 : Fin 2) * 1024 + 1 * (j 1).val = win0_8.index t (1 : Fin 2) * 1024 + 1 * (j 1).val; omega
  rw [h6, h7]

/-- What point t writes back to the potentials array is its block of the specification's new potentials. -/
theorem potentials_flushed (c : Dev nD) (t : Fin cfg0.N) :
    (dat0 (F := Ideal) V c).flushed 9 t
      = ((cfg0.win 9).blk t).view.read (Elt Ideal) (Cert.Lif.potentials Cert.Lif.rateE (V c main_arg1) (V c main_arg2)) := by
  show (cfg0.win 9).cut (grid0.coords t) ((dat0 V c).after 9 t) = _
  rw [after0_9]
  unfold out0_9
  rw [View.canon_unit_zero hz]
  simp only [View.ld_unit_zero (S := S256x1024) hz]
  obtain ⟨-, -, -, -, -, -, -, -, -, -, -, -, e60, e61, e70, e71, -, -, e90, e91, -, -⟩ := idx_facts t
  funext j
  show Cert.Lif.held (Cert.Lif.decayed Cert.Lif.rateE (V c main_arg1 (((cfg0.win 6).blk t).view.emb j)) (V c main_arg2 (((cfg0.win 7).blk t).view.emb j)))
    = Cert.Lif.held (Cert.Lif.decayed Cert.Lif.rateE (V c main_arg1 (((cfg0.win 9).blk t).view.emb j)) (V c main_arg2 (((cfg0.win 9).blk t).view.emb j)))
  have h6 : ((cfg0.win 6).blk t).view.emb j = ((cfg0.win 9).blk t).view.emb j := by
    funext a; apply Fin.ext
    match a with
    | ⟨0, _⟩ => show win0_6.index t (0 : Fin 2) * 256 + 1 * (j 0).val = win0_9.index t (0 : Fin 2) * 256 + 1 * (j 0).val; omega
    | ⟨1, _⟩ => show win0_6.index t (1 : Fin 2) * 1024 + 1 * (j 1).val = win0_9.index t (1 : Fin 2) * 1024 + 1 * (j 1).val; omega
  have h7 : ((cfg0.win 7).blk t).view.emb j = ((cfg0.win 9).blk t).view.emb j := by
    funext a; apply Fin.ext
    match a with
    | ⟨0, _⟩ => show win0_7.index t (0 : Fin 2) * 256 + 1 * (j 0).val = win0_9.index t (0 : Fin 2) * 256 + 1 * (j 0).val; omega
    | ⟨1, _⟩ => show win0_7.index t (1 : Fin 2) * 1024 + 1 * (j 1).val = win0_9.index t (1 : Fin 2) * 1024 + 1 * (j 1).val; omega
  rw [h6, h7]

/-! ## The currents -/

/-- One entry of the new currents from loaded blocks: if the blocks' rows are the arrays' rows r (for the batch) and n
    (for the neuron), the body's value at (p, q) is the specification's current at (r, n). -/
theorem current_of_blocks (b0 : Vec Ideal S256x1024 .bf16) (b1 : Vec Ideal S256x4096 .bf16) (b2 : Vec Ideal S256x1024 .bf16)
    (b3 : Vec Ideal S1024x1024 .bf16) (b4 : Vec Ideal S1024x4096 .bf16) (b5 : Vec Ideal S1024x1024 .bf16)
    (b7 : Vec Ideal S256x1024 .f32)
    (X : Vec Ideal S2048x1024 .bf16) (SE : Vec Ideal S2048x4096 .bf16) (SI : Vec Ideal S2048x1024 .bf16)
    (Win : Vec Ideal S4096x1024 .bf16) (WE : Vec Ideal S4096x4096 .bf16) (WI : Vec Ideal S4096x1024 .bf16)
    (S : Vec Ideal S2048x4096 .f32) (p : Fin 256) (q : Fin 1024) (r : Fin 2048) (n : Fin 4096)
    (h7 : b7 (ix2 p q) = S (ix2 r n))
    (h0 : ∀ k : Fin 1024, b0 (ix2 p k) = X (ix2 r k)) (h1 : ∀ k : Fin 4096, b1 (ix2 p k) = SE (ix2 r k))
    (h2 : ∀ k : Fin 1024, b2 (ix2 p k) = SI (ix2 r k)) (h3 : ∀ k : Fin 1024, b3 (ix2 q k) = Win (ix2 n k))
    (h4 : ∀ k : Fin 4096, b4 (ix2 q k) = WE (ix2 n k)) (h5 : ∀ k : Fin 1024, b5 (ix2 q k) = WI (ix2 n k)) :
    b7 (ix2 p q) * Cert.Lif.keep + k0_pay4 b0 b1 b2 b3 b4 b5 (ix2 p q)
      = Cert.Lif.currents X SE SI Win WE WI S (ix2 r n) := by
  rw [Cert.KernelIdeal.Drive.drive_apply, h7]
  unfold Cert.Lif.currents Cert.Lif.current Cert.Lif.rowDot Cert.Lif.rowDotRelu
  simp only [h0, h1, h2, h3, h4, h5]

/-- What point t writes back to the currents array is its block of the specification's new currents of the arrays the
    region finds: the three activation arrays by rows, the three weight arrays by rows, the old currents by block. -/
theorem currents_flushed (c : Dev nD) (t : Fin cfg0.N) :
    (dat0 (F := Ideal) V c).flushed 10 t
      = ((cfg0.win 10).blk t).view.read (Elt Ideal)
          (Cert.Lif.currents (V c main_v0) (V c main_v1) (V c main_v2) (V c main_v7) (V c main_v3) (V c main_v4) (V c main_arg2)) := by
  show (cfg0.win 10).cut (grid0.coords t) ((dat0 V c).after 10 t) = _
  rw [after0_10]
  unfold out0_10
  rw [View.canon_unit_zero hz]
  simp only [View.ld_unit_zero (S := S256x1024) hz, View.ld_unit_zero (S := S256x4096) hz,
    View.ld_unit_zero (S := S1024x1024) hz, View.ld_unit_zero (S := S1024x4096) hz]
  obtain ⟨e00, e01, e10, e11, e20, e21, e30, e31, e40, e41, e50, e51, -, -, e70, e71, -, -, -, -, e100, e101⟩ := idx_facts t
  have htN : t.val < 32 := t.isLt
  funext j
  obtain ⟨p, q, rfl⟩ : ∃ (p : Fin 256) (q : Fin 1024), j = ix2 p q := ⟨j 0, j 1, eq_ix2 j⟩
  obtain ⟨r, n, hrn⟩ : ∃ (r : Fin 2048) (n : Fin 4096), ((cfg0.win 10).blk t).view.emb (ix2 p q) = ix2 r n :=
    ⟨_, _, eq_ix2 _⟩
  have hr : r.val = win0_10.index t (0 : Fin 2) * 256 + 1 * p.val := (congrArg Fin.val (congrFun hrn 0)).symm
  have hn : n.val = win0_10.index t (1 : Fin 2) * 1024 + 1 * q.val := (congrArg Fin.val (congrFun hrn 1)).symm
  have h7 : iblk0 V c 7 t (ix2 p q) = V c main_arg2 (ix2 r n) := by
    show V c main_arg2 (((cfg0.win 7).blk t).view.emb (ix2 p q)) = _
    refine congrArg (V c main_arg2) (funext fun a => Fin.ext ?_)
    match a with
    | ⟨0, _⟩ => show win0_7.index t (0 : Fin 2) * 256 + 1 * p.val = r.val; omega
    | ⟨1, _⟩ => show win0_7.index t (1 : Fin 2) * 1024 + 1 * q.val = n.val; omega
  have h0 : ∀ k : Fin 1024, iblk0 V c 0 t (ix2 p k) = V c main_v0 (ix2 r k) := fun k => by
    show V c main_v0 (((cfg0.win 0).blk t).view.emb (ix2 p k)) = _
    refine congrArg (V c main_v0) (funext fun a => Fin.ext ?_)
    match a with
    | ⟨0, _⟩ => show win0_0.index t (0 : Fin 2) * 256 + 1 * p.val = r.val; omega
    | ⟨1, _⟩ => show win0_0.index t (1 : Fin 2) * 1024 + 1 * k.val = k.val; omega
  have h1 : ∀ k : Fin 4096, iblk0 V c 1 t (ix2 p k) = V c main_v1 (ix2 r k) := fun k => by
    show V c main_v1 (((cfg0.win 1).blk t).view.emb (ix2 p k)) = _
    refine congrArg (V c main_v1) (funext fun a => Fin.ext ?_)
    match a with
    | ⟨0, _⟩ => show win0_1.index t (0 : Fin 2) * 256 + 1 * p.val = r.val; omega
    | ⟨1, _⟩ => show win0_1.index t (1 : Fin 2) * 4096 + 1 * k.val = k.val; omega
  have h2 : ∀ k : Fin 1024, iblk0 V c 2 t (ix2 p k) = V c main_v2 (ix2 r k) := fun k => by
    show V c main_v2 (((cfg0.win 2).blk t).view.emb (ix2 p k)) = _
    refine congrArg (V c main_v2) (funext fun a => Fin.ext ?_)
    match a with
    | ⟨0, _⟩ => show win0_2.index t (0 : Fin 2) * 256 + 1 * p.val = r.val; omega
    | ⟨1, _⟩ => show win0_2.index t (1 : Fin 2) * 1024 + 1 * k.val = k.val; omega
  have h3 : ∀ k : Fin 1024, iblk0 V c 3 t (ix2 q k) = V c main_v7 (ix2 n k) := fun k => by
    show V c main_v7 (((cfg0.win 3).blk t).view.emb (ix2 q k)) = _
    refine congrArg (V c main_v7) (funext fun a => Fin.ext ?_)
    match a with
    | ⟨0, _⟩ => show win0_3.index t (0 : Fin 2) * 1024 + 1 * q.val = n.val; omega
    | ⟨1, _⟩ => show win0_3.index t (1 : Fin 2) * 1024 + 1 * k.val = k.val; omega
  have h4 : ∀ k : Fin 4096, iblk0 V c 4 t (ix2 q k) = V c main_v3 (ix2 n k) := fun k => by
    show V c main_v3 (((cfg0.win 4).blk t).view.emb (ix2 q k)) = _
    refine congrArg (V c main_v3) (funext fun a => Fin.ext ?_)
    match a with
    | ⟨0, _⟩ => show win0_4.index t (0 : Fin 2) * 1024 + 1 * q.val = n.val; omega
    | ⟨1, _⟩ => show win0_4.index t (1 : Fin 2) * 4096 + 1 * k.val = k.val; omega
  have h5 : ∀ k : Fin 1024, iblk0 V c 5 t (ix2 q k) = V c main_v4 (ix2 n k) := fun k => by
    show V c main_v4 (((cfg0.win 5).blk t).view.emb (ix2 q k)) = _
    refine congrArg (V c main_v4) (funext fun a => Fin.ext ?_)
    match a with
    | ⟨0, _⟩ => show win0_5.index t (0 : Fin 2) * 1024 + 1 * q.val = n.val; omega
    | ⟨1, _⟩ => show win0_5.index t (1 : Fin 2) * 1024 + 1 * k.val = k.val; omega
  refine Eq.trans (b := Cert.Lif.currents (V c main_v0) (V c main_v1) (V c main_v2) (V c main_v7) (V c main_v3) (V c main_v4) (V c main_arg2) (ix2 r n)) ?_ ?_
  · exact current_of_blocks (iblk0 V c 0 t) (iblk0 V c 1 t) (iblk0 V c 2 t) (iblk0 V c 3 t) (iblk0 V c 4 t) (iblk0 V c 5 t) (iblk0 V c 7 t)
      (V c main_v0) (V c main_v1) (V c main_v2) (V c main_v7) (V c main_v3) (V c main_v4) (V c main_arg2) p q r n h7 h0 h1 h2 h3 h4 h5
  · show Cert.Lif.currents (V c main_v0) (V c main_v1) (V c main_v2) (V c main_v7) (V c main_v3) (V c main_v4) (V c main_arg2) (ix2 r n)
      = Cert.Lif.currents (V c main_v0) (V c main_v1) (V c main_v2) (V c main_v7) (V c main_v3) (V c main_v4) (V c main_arg2)
          (((cfg0.win 10).blk t).view.emb (ix2 p q))
    rw [hrn]

/-! ## From blocks to the arrays -/

/-- An index of the array lies in point t's block of output 0 iff each coordinate lies in the block's range on its axis. -/
theorem mem_blk8 (t : Fin cfg0.N) (i : S2048x4096.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v9_0).slice (win0_8.rect t)).set ↔ _
  rw [View.set_slice_whole, Rect.mem_set_unit]
  exact Iff.rfl

/-- Every index of the array lies in the block of the point (row / 256, column / 1024): the 32 blocks tile the array. -/
theorem cover8 (i : S2048x4096.Idx) :
    ∃ t : Fin cfg0.N, (cfg0.win 8).flush t = true ∧ i ∈ ((cfg0.win 8).blk t).view.set := by
  have hi0 : (i 0).val < 2048 := (i 0).isLt
  have hi1 : (i 1).val < 4096 := (i 1).isLt
  have ht : (i 1).val / 1024 * 8 + (i 0).val / 256 < cfg0.N := by show _ < 32; omega
  obtain ⟨-, -, -, -, -, -, -, -, -, -, -, -, -, -, -, -, e80, e81, -, -, -, -⟩ := idx_facts ⟨(i 1).val / 1024 * 8 + (i 0).val / 256, ht⟩
  have f0 : win0_8.index ⟨(i 1).val / 1024 * 8 + (i 0).val / 256, ht⟩ (0 : Fin 2) = ((i 1).val / 1024 * 8 + (i 0).val / 256) % 8 := e80
  have f1 : win0_8.index ⟨(i 1).val / 1024 * 8 + (i 0).val / 256, ht⟩ (1 : Fin 2) = ((i 1).val / 1024 * 8 + (i 0).val / 256) / 8 := e81
  refine ⟨⟨(i 1).val / 1024 * 8 + (i 0).val / 256, ht⟩, flush0_8 _, ?_⟩
  rw [mem_blk8]
  intro a
  match a with
  | ⟨0, _⟩ =>
    show win0_8.index ⟨(i 1).val / 1024 * 8 + (i 0).val / 256, ht⟩ (0 : Fin 2) * 256 ≤ (i 0).val ∧ (i 0).val < win0_8.index ⟨(i 1).val / 1024 * 8 + (i 0).val / 256, ht⟩ (0 : Fin 2) * 256 + 256
    omega
  | ⟨1, _⟩ =>
    show win0_8.index ⟨(i 1).val / 1024 * 8 + (i 0).val / 256, ht⟩ (1 : Fin 2) * 1024 ≤ (i 1).val ∧ (i 1).val < win0_8.index ⟨(i 1).val / 1024 * 8 + (i 0).val / 256, ht⟩ (1 : Fin 2) * 1024 + 1024
    omega

/-- An index of the array lies in point t's block of output 1 iff each coordinate lies in the block's range on its axis. -/
theorem mem_blk9 (t : Fin cfg0.N) (i : S2048x4096.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v9_1).slice (win0_9.rect t)).set ↔ _
  rw [View.set_slice_whole, Rect.mem_set_unit]
  exact Iff.rfl

/-- Every index of the array lies in the block of the point (row / 256, column / 1024): the 32 blocks tile the array. -/
theorem cover9 (i : S2048x4096.Idx) :
    ∃ t : Fin cfg0.N, (cfg0.win 9).flush t = true ∧ i ∈ ((cfg0.win 9).blk t).view.set := by
  have hi0 : (i 0).val < 2048 := (i 0).isLt
  have hi1 : (i 1).val < 4096 := (i 1).isLt
  have ht : (i 1).val / 1024 * 8 + (i 0).val / 256 < cfg0.N := by show _ < 32; omega
  obtain ⟨-, -, -, -, -, -, -, -, -, -, -, -, -, -, -, -, -, -, e90, e91, -, -⟩ := idx_facts ⟨(i 1).val / 1024 * 8 + (i 0).val / 256, ht⟩
  have f0 : win0_9.index ⟨(i 1).val / 1024 * 8 + (i 0).val / 256, ht⟩ (0 : Fin 2) = ((i 1).val / 1024 * 8 + (i 0).val / 256) % 8 := e90
  have f1 : win0_9.index ⟨(i 1).val / 1024 * 8 + (i 0).val / 256, ht⟩ (1 : Fin 2) = ((i 1).val / 1024 * 8 + (i 0).val / 256) / 8 := e91
  refine ⟨⟨(i 1).val / 1024 * 8 + (i 0).val / 256, ht⟩, flush0_9 _, ?_⟩
  rw [mem_blk9]
  intro a
  match a with
  | ⟨0, _⟩ =>
    show win0_9.index ⟨(i 1).val / 1024 * 8 + (i 0).val / 256, ht⟩ (0 : Fin 2) * 256 ≤ (i 0).val ∧ (i 0).val < win0_9.index ⟨(i 1).val / 1024 * 8 + (i 0).val / 256, ht⟩ (0 : Fin 2) * 256 + 256
    omega
  | ⟨1, _⟩ =>
    show win0_9.index ⟨(i 1).val / 1024 * 8 + (i 0).val / 256, ht⟩ (1 : Fin 2) * 1024 ≤ (i 1).val ∧ (i 1).val < win0_9.index ⟨(i 1).val / 1024 * 8 + (i 0).val / 256, ht⟩ (1 : Fin 2) * 1024 + 1024
    omega

/-- An index of the array lies in point t's block of output 2 iff each coordinate lies in the block's range on its axis. -/
theorem mem_blk10 (t : Fin cfg0.N) (i : S2048x4096.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v9_2).slice (win0_10.rect t)).set ↔ _
  rw [View.set_slice_whole, Rect.mem_set_unit]
  exact Iff.rfl

/-- Every index of the array lies in the block of the point (row / 256, column / 1024): the 32 blocks tile the array. -/
theorem cover10 (i : S2048x4096.Idx) :
    ∃ t : Fin cfg0.N, (cfg0.win 10).flush t = true ∧ i ∈ ((cfg0.win 10).blk t).view.set := by
  have hi0 : (i 0).val < 2048 := (i 0).isLt
  have hi1 : (i 1).val < 4096 := (i 1).isLt
  have ht : (i 1).val / 1024 * 8 + (i 0).val / 256 < cfg0.N := by show _ < 32; omega
  obtain ⟨-, -, -, -, -, -, -, -, -, -, -, -, -, -, -, -, -, -, -, -, e100, e101⟩ := idx_facts ⟨(i 1).val / 1024 * 8 + (i 0).val / 256, ht⟩
  have f0 : win0_10.index ⟨(i 1).val / 1024 * 8 + (i 0).val / 256, ht⟩ (0 : Fin 2) = ((i 1).val / 1024 * 8 + (i 0).val / 256) % 8 := e100
  have f1 : win0_10.index ⟨(i 1).val / 1024 * 8 + (i 0).val / 256, ht⟩ (1 : Fin 2) = ((i 1).val / 1024 * 8 + (i 0).val / 256) / 8 := e101
  refine ⟨⟨(i 1).val / 1024 * 8 + (i 0).val / 256, ht⟩, flush0_10 _, ?_⟩
  rw [mem_blk10]
  intro a
  match a with
  | ⟨0, _⟩ =>
    show win0_10.index ⟨(i 1).val / 1024 * 8 + (i 0).val / 256, ht⟩ (0 : Fin 2) * 256 ≤ (i 0).val ∧ (i 0).val < win0_10.index ⟨(i 1).val / 1024 * 8 + (i 0).val / 256, ht⟩ (0 : Fin 2) * 256 + 256
    omega
  | ⟨1, _⟩ =>
    show win0_10.index ⟨(i 1).val / 1024 * 8 + (i 0).val / 256, ht⟩ (1 : Fin 2) * 1024 ≤ (i 1).val ∧ (i 1).val < win0_10.index ⟨(i 1).val / 1024 * 8 + (i 0).val / 256, ht⟩ (1 : Fin 2) * 1024 + 1024
    omega

/-- The spikes array after the region. -/
theorem spikes_final (c : Dev nD) :
    (dat0 (F := Ideal) V c).arrAt 8 cfg0.N = Cert.Lif.spikes Cert.Lif.rateE (V c main_arg1) (V c main_arg2) :=
  (dat0 (F := Ideal) V c).arrAt_eq_of_cover 8 (Cert.Lif.spikes Cert.Lif.rateE (V c main_arg1) (V c main_arg2))
    (fun t _ => spikes_flushed V c t) cover8

/-- The potentials array after the region. -/
theorem potentials_final (c : Dev nD) :
    (dat0 (F := Ideal) V c).arrAt 9 cfg0.N = Cert.Lif.potentials Cert.Lif.rateE (V c main_arg1) (V c main_arg2) :=
  (dat0 (F := Ideal) V c).arrAt_eq_of_cover 9 (Cert.Lif.potentials Cert.Lif.rateE (V c main_arg1) (V c main_arg2))
    (fun t _ => potentials_flushed V c t) cover9

/-- The currents array after the region. -/
theorem currents_final (c : Dev nD) :
    (dat0 (F := Ideal) V c).arrAt 10 cfg0.N
      = Cert.Lif.currents (V c main_v0) (V c main_v1) (V c main_v2) (V c main_v7) (V c main_v3) (V c main_v4) (V c main_arg2) :=
  (dat0 (F := Ideal) V c).arrAt_eq_of_cover 10
    (Cert.Lif.currents (V c main_v0) (V c main_v1) (V c main_v2) (V c main_v7) (V c main_v3) (V c main_v4) (V c main_arg2))
    (fun t _ => currents_flushed V c t) cover10

end Cert.KernelIdeal.RegionE

end
-- ==== Proof.KernelI.lean ====
/-
  What the inhibitory update leaves in its three output arrays.

  The update runs over 8 points, one per block of 256 consecutive batch rows. At point i it reads rows
  [256·i, 256·i + 256) of the input spikes, the excitatory spikes, the inhibitory spikes, the potentials and the
  currents (every column), and the three weight matrices whole; it writes the same block of rows of each of its three
  outputs. The 8 blocks of rows tile the 2048 rows, so every entry of an output array is written by exactly the point
  r / 256 of its row r, and the array ends holding, entry by entry, what that point computed there:

    spikes      spike (decayed rateI v s)            at the entry's own potential v and current s;
    potentials  held (decayed rateI v s)             likewise;
    currents    s · keep + ((ext + exc) − inh)       the three drives being row products against the weights.

  For the first two the body is entry-wise, so an entry of the block is the function of the two inputs at the same
  entry of the block, which is the entry (256·i + p, q) of the arrays. For the currents the drive's entry (p, q) of
  the block is a sum over k of products of block entries (p, k) and weight entries (q, k); the block entry (p, k) is the
  array's entry (256·i + p, k) and the weight block is the whole matrix, so the sum is the array's row product at
  row 256·i + p.
-/
import proofs.«128312_j18176301596897_1_alg».proof.Proof.Gen.KernelIdeal.Frame
import proofs.«128312_j18176301596897_1_alg».proof.Proof.LifSpec
import proofs.«128312_j18176301596897_1_alg».proof.Proof.KernelDrive
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

open scoped BigOperators

namespace Cert.KernelIdeal.RegionI

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a whole-block access, as the constant function. -/
theorem hz : (![0, 0] : Fin 2 → Nat) = fun _ => 0 := funext fun a => by fin_cases a <;> rfl

/-! ## The body's results at one entry of a block -/

/-- The spike output at an entry depends only on the potential and the current at that entry: it is the bit of
    (decayed potential − 1 > 0) read as a number, the comparison being against the zero word. -/
theorem spike_at (x6 x7 : Vec Ideal S256x1024 .f32) (j : S256x1024.Idx) :
    k1_pay1 (F := Ideal) (k1_pay7 x6 x7) (Scalar.ofBits .f32 0x00000000#32) j
      = Cert.Lif.spike (Cert.Lif.decayed Cert.Lif.rateI (x6 j) (x7 j)) := rfl

/-- The potential output at an entry: (1 − spike) · u + spike · 0 at the decayed potential u of that entry. -/
theorem held_at (x6 x7 : Vec Ideal S256x1024 .f32) (j : S256x1024.Idx) :
    k1_pay2 (F := Ideal) (k1_pay5 x6 x7) (k1_pay7 x6 x7) (Scalar.ofBits .f32 0x00000000#32) j
      = Cert.Lif.held (Cert.Lif.decayed Cert.Lif.rateI (x6 j) (x7 j)) := rfl

/-- The current output at the entry (p, q) of a block: the old current there times `keep`, plus the drive, whose
    entry (p, q) is the three row products of the loaded blocks (row p of the activity blocks against row q of the
    weight blocks). The drive is the same term as the excitatory update's. -/
theorem current_at (x0 : Vec Ideal S256x1024 .bf16) (x1 : Vec Ideal S256x4096 .bf16) (x2 : Vec Ideal S256x1024 .bf16)
    (x3 : Vec Ideal S1024x1024 .bf16) (x4 : Vec Ideal S1024x4096 .bf16) (x5 : Vec Ideal S1024x1024 .bf16)
    (x7 : Vec Ideal S256x1024 .f32) (p : Fin 256) (q : Fin 1024) :
    k1_pay3 (F := Ideal) (k1_pay4 x0 x1 x2 x3 x4 x5) (k1_pay6 x7) (ix2 p q)
      = Cert.Lif.current (x7 (ix2 p q)) (Cert.Lif.rowDot x0 x3 p q) (Cert.Lif.rowDotRelu x1 x4 p q) (Cert.Lif.rowDotRelu x2 x5 p q) := by
  show x7 (ix2 p q) * Cert.Lif.keep + k1_pay4 (F := Ideal) x0 x1 x2 x3 x4 x5 (ix2 p q) = _
  rw [Cert.KernelIdeal.Drive.drive1_eq, Cert.KernelIdeal.Drive.drive_apply]
  rfl

/-! ## Which block each point takes -/

/-- The five activity and state inputs and the three outputs take, at point t, the block of rows number t and the
    only block of columns. -/
theorem rows_move : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- The three weight matrices are taken whole at every point: block 0 on both axes. -/
theorem weights_whole : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## A row product of blocks is the arrays' row product

An entry of a block sits in its array, on each axis, at block index × block size + its coordinate in the block. So
row p of an activity block at point t is row r = 256·t + p of the activity array, and the weight block is the weight
matrix itself; the sum over the contracted axis is term by term the same. -/

/-- The input spikes against the input weights (contracting 1024 columns). -/
theorem rowDot_block (A : S2048x1024.Idx → EReal) (W : S1024x1024.Idx → EReal) (t : Fin cfg1.N) (p : Fin 256) (q : Fin 1024)
    (r : Fin 2048) (hr : r.val = t.val * 256 + p.val) :
    Cert.Lif.rowDot (B := 256) (N := 1024) (K := 1024) (fun y => A (((cfg1.win 0).blk t).view.emb y))
        (fun y => W (((cfg1.win 3).blk t).view.emb y)) p q
      = Cert.Lif.rowDot A W r q := by
  obtain ⟨e00, e01, -⟩ := rows_move t
  obtain ⟨e30, e31, -⟩ := weights_whole t
  unfold Cert.Lif.rowDot
  refine Finset.sum_congr rfl fun k _ => ?_
  have h0 : ((cfg1.win 0).blk t).view.emb (ix2 p k) = ix2 r k := by
    funext a; apply Fin.ext
    match a with
    | ⟨0, _⟩ => show win1_0.index t (0 : Fin 2) * 256 + 1 * p.val = r.val; omega
    | ⟨1, _⟩ => show win1_0.index t (1 : Fin 2) * 1024 + 1 * k.val = k.val; omega
  have h3 : ((cfg1.win 3).blk t).view.emb (ix2 q k) = ix2 q k := by
    funext a; apply Fin.ext
    match a with
    | ⟨0, _⟩ => show win1_3.index t (0 : Fin 2) * 1024 + 1 * q.val = q.val; omega
    | ⟨1, _⟩ => show win1_3.index t (1 : Fin 2) * 1024 + 1 * k.val = k.val; omega
  show A (((cfg1.win 0).blk t).view.emb (ix2 p k)) * W (((cfg1.win 3).blk t).view.emb (ix2 q k)) = A (ix2 r k) * W (ix2 q k)
  rw [h0, h3]

/-- The excitatory spikes against the rectified excitatory weights (contracting 4096 columns). -/
theorem rowDotRelu_blockE (A : S2048x4096.Idx → EReal) (W : S1024x4096.Idx → EReal) (t : Fin cfg1.N) (p : Fin 256) (q : Fin 1024)
    (r : Fin 2048) (hr : r.val = t.val * 256 + p.val) :
    Cert.Lif.rowDotRelu (B := 256) (N := 1024) (K := 4096) (fun y => A (((cfg1.win 1).blk t).view.emb y))
        (fun y => W (((cfg1.win 4).blk t).view.emb y)) p q
      = Cert.Lif.rowDotRelu A W r q := by
  obtain ⟨-, -, e10, e11, -⟩ := rows_move t
  obtain ⟨-, -, e40, e41, -⟩ := weights_whole t
  unfold Cert.Lif.rowDotRelu
  refine Finset.sum_congr rfl fun k _ => ?_
  have h1 : ((cfg1.win 1).blk t).view.emb (ix2 p k) = ix2 r k := by
    funext a; apply Fin.ext
    match a with
    | ⟨0, _⟩ => show win1_1.index t (0 : Fin 2) * 256 + 1 * p.val = r.val; omega
    | ⟨1, _⟩ => show win1_1.index t (1 : Fin 2) * 4096 + 1 * k.val = k.val; omega
  have h4 : ((cfg1.win 4).blk t).view.emb (ix2 q k) = ix2 q k := by
    funext a; apply Fin.ext
    match a with
    | ⟨0, _⟩ => show win1_4.index t (0 : Fin 2) * 1024 + 1 * q.val = q.val; omega
    | ⟨1, _⟩ => show win1_4.index t (1 : Fin 2) * 4096 + 1 * k.val = k.val; omega
  show A (((cfg1.win 1).blk t).view.emb (ix2 p k)) * max (W (((cfg1.win 4).blk t).view.emb (ix2 q k))) 0 = A (ix2 r k) * max (W (ix2 q k)) 0
  rw [h1, h4]

/-- The inhibitory spikes against the rectified inhibitory weights (contracting 1024 columns). -/
theorem rowDotRelu_blockI (A : S2048x1024.Idx → EReal) (W : S1024x1024.Idx → EReal) (t : Fin cfg1.N) (p : Fin 256) (q : Fin 1024)
    (r : Fin 2048) (hr : r.val = t.val * 256 + p.val) :
    Cert.Lif.rowDotRelu (B := 256) (N := 1024) (K := 1024) (fun y => A (((cfg1.win 2).blk t).view.emb y))
        (fun y => W (((cfg1.win 5).blk t).view.emb y)) p q
      = Cert.Lif.rowDotRelu A W r q := by
  obtain ⟨-, -, -, -, e20, e21, -⟩ := rows_move t
  obtain ⟨-, -, -, -, e50, e51⟩ := weights_whole t
  unfold Cert.Lif.rowDotRelu
  refine Finset.sum_congr rfl fun k _ => ?_
  have h2 : ((cfg1.win 2).blk t).view.emb (ix2 p k) = ix2 r k := by
    funext a; apply Fin.ext
    match a with
    | ⟨0, _⟩ => show win1_2.index t (0 : Fin 2) * 256 + 1 * p.val = r.val; omega
    | ⟨1, _⟩ => show win1_2.index t (1 : Fin 2) * 1024 + 1 * k.val = k.val; omega
  have h5 : ((cfg1.win 5).blk t).view.emb (ix2 q k) = ix2 q k := by
    funext a; apply Fin.ext
    match a with
    | ⟨0, _⟩ => show win1_5.index t (0 : Fin 2) * 1024 + 1 * q.val = q.val; omega
    | ⟨1, _⟩ => show win1_5.index t (1 : Fin 2) * 1024 + 1 * k.val = k.val; omega
  show A (((cfg1.win 2).blk t).view.emb (ix2 p k)) * max (W (((cfg1.win 5).blk t).view.emb (ix2 q k))) 0 = A (ix2 r k) * max (W (ix2 q k)) 0
  rw [h2, h5]

-- The contents of every array when the update begins: arbitrary.
variable (V : (c : Dev nD) → (b : Ref sig .tc) → Buf (Elt Ideal) ((c : Thread nD τ).loc b))

/-! ## What point t writes back is block t of the whole-array function -/

/-- Spikes: the potential block and the current block sit at the same rows as the output block, so the entry written
    at a place of the block is the spike of the potential and current at that place of the arrays. -/
theorem spikes_block (c : Dev nD) (t : Fin cfg1.N) :
    (dat1 (F := Ideal) V c).flushed 8 t
      = ((cfg1.win 8).blk t).view.read (Elt Ideal) (Cert.Lif.spikes Cert.Lif.rateI (V c main_arg3) (V c main_arg4)) := by
  show (cfg1.win 8).cut (grid1.coords t) ((dat1 V c).after 8 t) = _
  rw [after1_8]
  unfold out1_8
  rw [View.canon_unit_zero hz]
  simp only [View.ld_unit_zero (S := S256x1024) hz]
  obtain ⟨-, -, -, -, -, -, e60, e61, e70, e71, e80, e81, -⟩ := rows_move t
  funext j
  show Cert.Lif.spike (Cert.Lif.decayed Cert.Lif.rateI (V c main_arg3 (((cfg1.win 6).blk t).view.emb j)) (V c main_arg4 (((cfg1.win 7).blk t).view.emb j)))
     = Cert.Lif.spike (Cert.Lif.decayed Cert.Lif.rateI (V c main_arg3 (((cfg1.win 8).blk t).view.emb j)) (V c main_arg4 (((cfg1.win 8).blk t).view.emb j)))
  have h6 : ((cfg1.win 6).blk t).view.emb j = ((cfg1.win 8).blk t).view.emb j := by
    funext a; apply Fin.ext
    match a with
    | ⟨0, _⟩ => show win1_6.index t (0 : Fin 2) * 256 + 1 * (j 0).val = win1_8.index t (0 : Fin 2) * 256 + 1 * (j 0).val; omega
    | ⟨1, _⟩ => show win1_6.index t (1 : Fin 2) * 1024 + 1 * (j 1).val = win1_8.index t (1 : Fin 2) * 1024 + 1 * (j 1).val; omega
  have h7 : ((cfg1.win 7).blk t).view.emb j = ((cfg1.win 8).blk t).view.emb j := by
    funext a; apply Fin.ext
    match a with
    | ⟨0, _⟩ => show win1_7.index t (0 : Fin 2) * 256 + 1 * (j 0).val = win1_8.index t (0 : Fin 2) * 256 + 1 * (j 0).val; omega
    | ⟨1, _⟩ => show win1_7.index t (1 : Fin 2) * 1024 + 1 * (j 1).val = win1_8.index t (1 : Fin 2) * 1024 + 1 * (j 1).val; omega
  rw [h6, h7]

/-- Potentials: the same two blocks, the same places. -/
theorem potentials_block (c : Dev nD) (t : Fin cfg1.N) :
    (dat1 (F := Ideal) V c).flushed 9 t
      = ((cfg1.win 9).blk t).view.read (Elt Ideal) (Cert.Lif.potentials Cert.Lif.rateI (V c main_arg3) (V c main_arg4)) := by
  show (cfg1.win 9).cut (grid1.coords t) ((dat1 V c).after 9 t) = _
  rw [after1_9]
  unfold out1_9
  rw [View.canon_unit_zero hz]
  simp only [View.ld_unit_zero (S := S256x1024) hz]
  obtain ⟨-, -, -, -, -, -, e60, e61, e70, e71, -, -, e90, e91, -⟩ := rows_move t
  funext j
  show Cert.Lif.held (Cert.Lif.decayed Cert.Lif.rateI (V c main_arg3 (((cfg1.win 6).blk t).view.emb j)) (V c main_arg4 (((cfg1.win 7).blk t).view.emb j)))
     = Cert.Lif.held (Cert.Lif.decayed Cert.Lif.rateI (V c main_arg3 (((cfg1.win 9).blk t).view.emb j)) (V c main_arg4 (((cfg1.win 9).blk t).view.emb j)))
  have h6 : ((cfg1.win 6).blk t).view.emb j = ((cfg1.win 9).blk t).view.emb j := by
    funext a; apply Fin.ext
    match a with
    | ⟨0, _⟩ => show win1_6.index t (0 : Fin 2) * 256 + 1 * (j 0).val = win1_9.index t (0 : Fin 2) * 256 + 1 * (j 0).val; omega
    | ⟨1, _⟩ => show win1_6.index t (1 : Fin 2) * 1024 + 1 * (j 1).val = win1_9.index t (1 : Fin 2) * 1024 + 1 * (j 1).val; omega
  have h7 : ((cfg1.win 7).blk t).view.emb j = ((cfg1.win 9).blk t).view.emb j := by
    funext a; apply Fin.ext
    match a with
    | ⟨0, _⟩ => show win1_7.index t (0 : Fin 2) * 256 + 1 * (j 0).val = win1_9.index t (0 : Fin 2) * 256 + 1 * (j 0).val; omega
    | ⟨1, _⟩ => show win1_7.index t (1 : Fin 2) * 1024 + 1 * (j 1).val = win1_9.index t (1 : Fin 2) * 1024 + 1 * (j 1).val; omega
  rw [h6, h7]

/-- Currents: the entry (p, q) of the block written at point t is the entry (r, q), r = 256·t + p, of the arrays'
    currents: the old current is read at (r, q), and each of the three row products of blocks is the arrays' row
    product at row r against weight row q. -/
theorem currents_block (c : Dev nD) (t : Fin cfg1.N) :
    (dat1 (F := Ideal) V c).flushed 10 t
      = ((cfg1.win 10).blk t).view.read (Elt Ideal)
          (Cert.Lif.currents (V c main_v0) (V c main_v1) (V c main_v2) (V c main_v8) (V c main_v5) (V c main_v6) (V c main_arg4)) := by
  show (cfg1.win 10).cut (grid1.coords t) ((dat1 V c).after 10 t) = _
  rw [after1_10]
  unfold out1_10
  rw [View.canon_unit_zero hz]
  simp only [View.ld_unit_zero (S := S256x1024) hz, View.ld_unit_zero (S := S256x4096) hz,
    View.ld_unit_zero (S := S1024x1024) hz, View.ld_unit_zero (S := S1024x4096) hz]
  obtain ⟨-, -, -, -, -, -, -, -, e70, e71, -, -, -, -, eo0, eo1⟩ := rows_move t
  have ht : t.val < 8 := t.isLt
  funext j
  obtain ⟨p, q, rfl⟩ : ∃ (p : Fin 256) (q : Fin 1024), j = ix2 p q := ⟨j 0, j 1, eq_ix2 j⟩
  have hp : p.val < 256 := p.isLt
  let r : Fin 2048 := ⟨t.val * 256 + p.val, by omega⟩
  have hr : r.val = t.val * 256 + p.val := rfl
  have hE : ((cfg1.win 10).blk t).view.emb (ix2 p q) = ix2 r q := by
    funext a; apply Fin.ext
    match a with
    | ⟨0, _⟩ => show win1_10.index t (0 : Fin 2) * 256 + 1 * p.val = r.val; omega
    | ⟨1, _⟩ => show win1_10.index t (1 : Fin 2) * 1024 + 1 * q.val = q.val; omega
  have h7 : ((cfg1.win 7).blk t).view.emb (ix2 p q) = ix2 r q := by
    funext a; apply Fin.ext
    match a with
    | ⟨0, _⟩ => show win1_7.index t (0 : Fin 2) * 256 + 1 * p.val = r.val; omega
    | ⟨1, _⟩ => show win1_7.index t (1 : Fin 2) * 1024 + 1 * q.val = q.val; omega
  show k1_pay3 (F := Ideal) (k1_pay4 (iblk1 V c 0 t) (iblk1 V c 1 t) (iblk1 V c 2 t) (iblk1 V c 3 t) (iblk1 V c 4 t) (iblk1 V c 5 t)) (k1_pay6 (iblk1 V c 7 t)) (ix2 p q)
    = Cert.Lif.currents (V c main_v0) (V c main_v1) (V c main_v2) (V c main_v8) (V c main_v5) (V c main_v6) (V c main_arg4) (((cfg1.win 10).blk t).view.emb (ix2 p q))
  rw [current_at, hE]
  show _ = Cert.Lif.current (V c main_arg4 (ix2 r q)) (Cert.Lif.rowDot (V c main_v0) (V c main_v8) r q)
    (Cert.Lif.rowDotRelu (V c main_v1) (V c main_v5) r q) (Cert.Lif.rowDotRelu (V c main_v2) (V c main_v6) r q)
  have hS : iblk1 V c 7 t (ix2 p q) = V c main_arg4 (ix2 r q) := by
    show V c main_arg4 (((cfg1.win 7).blk t).view.emb (ix2 p q)) = _
    rw [h7]
  have hA : Cert.Lif.rowDot (iblk1 V c 0 t) (iblk1 V c 3 t) p q = Cert.Lif.rowDot (V c main_v0) (V c main_v8) r q :=
    rowDot_block (V c main_v0) (V c main_v8) t p q r hr
  have hB : Cert.Lif.rowDotRelu (iblk1 V c 1 t) (iblk1 V c 4 t) p q = Cert.Lif.rowDotRelu (V c main_v1) (V c main_v5) r q :=
    rowDotRelu_blockE (V c main_v1) (V c main_v5) t p q r hr
  have hC : Cert.Lif.rowDotRelu (iblk1 V c 2 t) (iblk1 V c 5 t) p q = Cert.Lif.rowDotRelu (V c main_v2) (V c main_v6) r q :=
    rowDotRelu_blockI (V c main_v2) (V c main_v6) t p q r hr
  rw [hS, hA, hB, hC]

/-! ## The blocks of rows tile each output array -/

/-- An entry of the spikes array is in point t's block iff, on each axis, its coordinate is in the block's range. -/
theorem mem_block8 (t : Fin cfg1.N) (i : S2048x1024.Idx) :
    i ∈ ((cfg1.win 8).blk t).view.set ↔ ∀ a : Fin 2, win1_8.index t a * S256x1024.size a ≤ (i a).val ∧ (i a).val < win1_8.index t a * S256x1024.size a + S256x1024.size a := by
  show i ∈ ((View.whole main_v10_0).slice (win1_8.rect t)).set ↔ _
  rw [View.set_slice_whole, Rect.mem_set_unit]
  exact Iff.rfl

/-- The same for the potentials array. -/
theorem mem_block9 (t : Fin cfg1.N) (i : S2048x1024.Idx) :
    i ∈ ((cfg1.win 9).blk t).view.set ↔ ∀ a : Fin 2, win1_9.index t a * S256x1024.size a ≤ (i a).val ∧ (i a).val < win1_9.index t a * S256x1024.size a + S256x1024.size a := by
  show i ∈ ((View.whole main_v10_1).slice (win1_9.rect t)).set ↔ _
  rw [View.set_slice_whole, Rect.mem_set_unit]
  exact Iff.rfl

/-- The same for the currents array. -/
theorem mem_block10 (t : Fin cfg1.N) (i : S2048x1024.Idx) :
    i ∈ ((cfg1.win 10).blk t).view.set ↔ ∀ a : Fin 2, win1_10.index t a * S256x1024.size a ≤ (i a).val ∧ (i a).val < win1_10.index t a * S256x1024.size a + S256x1024.size a := by
  show i ∈ ((View.whole main_v10_2).slice (win1_10.rect t)).set ↔ _
  rw [View.set_slice_whole, Rect.mem_set_unit]
  exact Iff.rfl

/-- Every entry (r, n) of the spikes array is written by the point r / 256: 256·(r / 256) ≤ r < 256·(r / 256) + 256,
    and the block takes every column. -/
theorem rows_cover8 (i : S2048x1024.Idx) :
    ∃ t : Fin cfg1.N, (cfg1.win 8).flush t = true ∧ i ∈ ((cfg1.win 8).blk t).view.set := by
  have hi0 : (i 0).val < 2048 := (i 0).isLt
  have hi1 : (i 1).val < 1024 := (i 1).isLt
  let t : Fin cfg1.N := ⟨(i 0).val / 256, by show (i 0).val / 256 < 8; omega⟩
  obtain ⟨-, -, -, -, -, -, -, -, -, -, e0, e1, -⟩ := rows_move t
  have ht : t.val = (i 0).val / 256 := rfl
  refine ⟨t, flush1_8 t, ?_⟩
  rw [mem_block8]
  intro a
  match a with
  | ⟨0, _⟩ => show win1_8.index t (0 : Fin 2) * 256 ≤ (i 0).val ∧ (i 0).val < win1_8.index t (0 : Fin 2) * 256 + 256; omega
  | ⟨1, _⟩ => show win1_8.index t (1 : Fin 2) * 1024 ≤ (i 1).val ∧ (i 1).val < win1_8.index t (1 : Fin 2) * 1024 + 1024; omega

/-- The same for the potentials array. -/
theorem rows_cover9 (i : S2048x1024.Idx) :
    ∃ t : Fin cfg1.N, (cfg1.win 9).flush t = true ∧ i ∈ ((cfg1.win 9).blk t).view.set := by
  have hi0 : (i 0).val < 2048 := (i 0).isLt
  have hi1 : (i 1).val < 1024 := (i 1).isLt
  let t : Fin cfg1.N := ⟨(i 0).val / 256, by show (i 0).val / 256 < 8; omega⟩
  obtain ⟨-, -, -, -, -, -, -, -, -, -, -, -, e0, e1, -⟩ := rows_move t
  have ht : t.val = (i 0).val / 256 := rfl
  refine ⟨t, flush1_9 t, ?_⟩
  rw [mem_block9]
  intro a
  match a with
  | ⟨0, _⟩ => show win1_9.index t (0 : Fin 2) * 256 ≤ (i 0).val ∧ (i 0).val < win1_9.index t (0 : Fin 2) * 256 + 256; omega
  | ⟨1, _⟩ => show win1_9.index t (1 : Fin 2) * 1024 ≤ (i 1).val ∧ (i 1).val < win1_9.index t (1 : Fin 2) * 1024 + 1024; omega

/-- The same for the currents array. -/
theorem rows_cover10 (i : S2048x1024.Idx) :
    ∃ t : Fin cfg1.N, (cfg1.win 10).flush t = true ∧ i ∈ ((cfg1.win 10).blk t).view.set := by
  have hi0 : (i 0).val < 2048 := (i 0).isLt
  have hi1 : (i 1).val < 1024 := (i 1).isLt
  let t : Fin cfg1.N := ⟨(i 0).val / 256, by show (i 0).val / 256 < 8; omega⟩
  obtain ⟨-, -, -, -, -, -, -, -, -, -, -, -, -, -, e0, e1⟩ := rows_move t
  have ht : t.val = (i 0).val / 256 := rfl
  refine ⟨t, flush1_10 t, ?_⟩
  rw [mem_block10]
  intro a
  match a with
  | ⟨0, _⟩ => show win1_10.index t (0 : Fin 2) * 256 ≤ (i 0).val ∧ (i 0).val < win1_10.index t (0 : Fin 2) * 256 + 256; omega
  | ⟨1, _⟩ => show win1_10.index t (1 : Fin 2) * 1024 ≤ (i 1).val ∧ (i 1).val < win1_10.index t (1 : Fin 2) * 1024 + 1024; omega

/-! ## The three arrays after the update -/

/-- The spikes array: at every entry, the spike of the decayed potential there. -/
theorem spikes_final (c : Dev nD) :
    (dat1 (F := Ideal) V c).arrAt 8 cfg1.N = Cert.Lif.spikes Cert.Lif.rateI (V c main_arg3) (V c main_arg4) :=
  (dat1 V c).arrAt_eq_of_cover 8 (Cert.Lif.spikes Cert.Lif.rateI (V c main_arg3) (V c main_arg4))
    (fun t _ => spikes_block V c t) rows_cover8

/-- The potentials array: at every entry, the decayed potential there, reset where the neuron fired. -/
theorem potentials_final (c : Dev nD) :
    (dat1 (F := Ideal) V c).arrAt 9 cfg1.N = Cert.Lif.potentials Cert.Lif.rateI (V c main_arg3) (V c main_arg4) :=
  (dat1 V c).arrAt_eq_of_cover 9 (Cert.Lif.potentials Cert.Lif.rateI (V c main_arg3) (V c main_arg4))
    (fun t _ => potentials_block V c t) rows_cover9

/-- The currents array: at every entry, the old current decayed plus the drive of its row and column. -/
theorem currents_final (c : Dev nD) :
    (dat1 (F := Ideal) V c).arrAt 10 cfg1.N
      = Cert.Lif.currents (V c main_v0) (V c main_v1) (V c main_v2) (V c main_v8) (V c main_v5) (V c main_v6) (V c main_arg4) :=
  (dat1 V c).arrAt_eq_of_cover 10
    (Cert.Lif.currents (V c main_v0) (V c main_v1) (V c main_v2) (V c main_v8) (V c main_v5) (V c main_v6) (V c main_arg4))
    (fun t _ => currents_block V c t) rows_cover10

end Cert.KernelIdeal.RegionI

end
-- ==== Proof.KernelValue.lean ====
/-
  The six arrays the idealized kernel program returns, as functions of its arguments.

  The last region boundary holds, at each result array, what the region that writes it leaves there; the other region
  does not touch it. What a region leaves is the specification's function of the arrays it finds, and what it finds are
  the arguments themselves (the narrowing to 16 bits is the identity on extended reals). So every weakly fair execution
  ends with the excitatory and inhibitory spikes, potentials and currents at the specification's functions of the
  thirteen arguments, and the arguments unchanged.
-/
import proofs.«128312_j18176301596897_1_alg».proof.Proof.KernelLaunch
import proofs.«128312_j18176301596897_1_alg».proof.Proof.KernelBoundary
import proofs.«128312_j18176301596897_1_alg».proof.Proof.KernelE
import proofs.«128312_j18176301596897_1_alg».proof.Proof.KernelI
import proofs.«128312_j18176301596897_1_alg».proof.Proof.LifSpec

set_option maxRecDepth 16384

noncomputable section

namespace Cert.KernelIdeal.Value

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## The excitatory results: written by the first region, untouched by the second -/

theorem spikesE (c : Dev nD) : W3 m ρ c (Proc.devRef .tc main_v9_0) = Cert.Lif.spikes Cert.Lif.rateE (m ((c : Thread nD τ).loc main_arg1)) (m ((c : Thread nD τ).loc main_arg2)) :=
  ((W3_of_ne m ρ c main_v9_0 (by decide)).trans (W2_arr m ρ c 8)).trans
    ((Cert.KernelIdeal.RegionE.spikes_final (V1 m ρ) c).trans
      (by rw [Boundary.entry_arg1 m ρ c, Boundary.entry_arg2 m ρ c]))

theorem potentialsE (c : Dev nD) : W3 m ρ c (Proc.devRef .tc main_v9_1) = Cert.Lif.potentials Cert.Lif.rateE (m ((c : Thread nD τ).loc main_arg1)) (m ((c : Thread nD τ).loc main_arg2)) :=
  ((W3_of_ne m ρ c main_v9_1 (by decide)).trans (W2_arr m ρ c 9)).trans
    ((Cert.KernelIdeal.RegionE.potentials_final (V1 m ρ) c).trans
      (by rw [Boundary.entry_arg1 m ρ c, Boundary.entry_arg2 m ρ c]))

theorem currentsE (c : Dev nD) : W3 m ρ c (Proc.devRef .tc main_v9_2) = Cert.Lif.currents (m ((c : Thread nD τ).loc main_arg0)) (m ((c : Thread nD τ).loc main_arg5)) (m ((c : Thread nD τ).loc main_arg6)) (m ((c : Thread nD τ).loc main_arg11)) (m ((c : Thread nD τ).loc main_arg7)) (m ((c : Thread nD τ).loc main_arg9)) (m ((c : Thread nD τ).loc main_arg2)) :=
  ((W3_of_ne m ρ c main_v9_2 (by decide)).trans (W2_arr m ρ c 10)).trans
    ((Cert.KernelIdeal.RegionE.currents_final (V1 m ρ) c).trans
      (by rw [Boundary.entry_main_v0 m ρ c, Boundary.entry_main_v1 m ρ c, Boundary.entry_main_v2 m ρ c,
        Boundary.entry_main_v7 m ρ c, Boundary.entry_main_v3 m ρ c, Boundary.entry_main_v4 m ρ c, Boundary.entry_arg2 m ρ c]))

/-! ## The inhibitory results: written by the second region -/

theorem spikesI (c : Dev nD) : W3 m ρ c (Proc.devRef .tc main_v10_0) = Cert.Lif.spikes Cert.Lif.rateI (m ((c : Thread nD τ).loc main_arg3)) (m ((c : Thread nD τ).loc main_arg4)) :=
  (W3_arr m ρ c 8).trans
    ((Cert.KernelIdeal.RegionI.spikes_final (V2 m ρ) c).trans
      (by rw [Boundary.mid_arg3 m ρ c, Boundary.mid_arg4 m ρ c]))

theorem potentialsI (c : Dev nD) : W3 m ρ c (Proc.devRef .tc main_v10_1) = Cert.Lif.potentials Cert.Lif.rateI (m ((c : Thread nD τ).loc main_arg3)) (m ((c : Thread nD τ).loc main_arg4)) :=
  (W3_arr m ρ c 9).trans
    ((Cert.KernelIdeal.RegionI.potentials_final (V2 m ρ) c).trans
      (by rw [Boundary.mid_arg3 m ρ c, Boundary.mid_arg4 m ρ c]))

theorem currentsI (c : Dev nD) : W3 m ρ c (Proc.devRef .tc main_v10_2) = Cert.Lif.currents (m ((c : Thread nD τ).loc main_arg0)) (m ((c : Thread nD τ).loc main_arg5)) (m ((c : Thread nD τ).loc main_arg6)) (m ((c : Thread nD τ).loc main_arg12)) (m ((c : Thread nD τ).loc main_arg8)) (m ((c : Thread nD τ).loc main_arg10)) (m ((c : Thread nD τ).loc main_arg4)) :=
  (W3_arr m ρ c 10).trans
    ((Cert.KernelIdeal.RegionI.currents_final (V2 m ρ) c).trans
      (by rw [Boundary.mid_v0 m ρ c, Boundary.mid_v1 m ρ c, Boundary.mid_v2 m ρ c,
        Boundary.mid_v8 m ρ c, Boundary.mid_v5 m ρ c, Boundary.mid_v6 m ρ c, Boundary.mid_arg4 m ρ c]))

/-! ## The run -/

/-- Every weakly fair execution of the idealized kernel program terminates, nothing faulting, with its six results at
    the specification's functions of the arguments and the arguments unchanged. -/
theorem run : θ_run defs (onTc (τ := τ) (main (F := Ideal))) ⟨m, fun _ => 0, ρ⟩ (fun r => ∀ c : Dev nD,
      r.2.mem ((c.tc : Thread nD τ).loc main_v9_0) = Cert.Lif.spikes Cert.Lif.rateE (m ((c : Thread nD τ).loc main_arg1)) (m ((c : Thread nD τ).loc main_arg2))
      ∧ r.2.mem ((c.tc : Thread nD τ).loc main_v10_0) = Cert.Lif.spikes Cert.Lif.rateI (m ((c : Thread nD τ).loc main_arg3)) (m ((c : Thread nD τ).loc main_arg4))
      ∧ r.2.mem ((c.tc : Thread nD τ).loc main_v9_1) = Cert.Lif.potentials Cert.Lif.rateE (m ((c : Thread nD τ).loc main_arg1)) (m ((c : Thread nD τ).loc main_arg2))
      ∧ r.2.mem ((c.tc : Thread nD τ).loc main_v9_2) = Cert.Lif.currents (m ((c : Thread nD τ).loc main_arg0)) (m ((c : Thread nD τ).loc main_arg5)) (m ((c : Thread nD τ).loc main_arg6)) (m ((c : Thread nD τ).loc main_arg11)) (m ((c : Thread nD τ).loc main_arg7)) (m ((c : Thread nD τ).loc main_arg9)) (m ((c : Thread nD τ).loc main_arg2))
      ∧ r.2.mem ((c.tc : Thread nD τ).loc main_v10_1) = Cert.Lif.potentials Cert.Lif.rateI (m ((c : Thread nD τ).loc main_arg3)) (m ((c : Thread nD τ).loc main_arg4))
      ∧ r.2.mem ((c.tc : Thread nD τ).loc main_v10_2) = Cert.Lif.currents (m ((c : Thread nD τ).loc main_arg0)) (m ((c : Thread nD τ).loc main_arg5)) (m ((c : Thread nD τ).loc main_arg6)) (m ((c : Thread nD τ).loc main_arg12)) (m ((c : Thread nD τ).loc main_arg8)) (m ((c : Thread nD τ).loc main_arg10)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c).1.trans (spikesE m ρ c), (h c).2.1.trans (spikesI m ρ c), (h c).2.2.1.trans (potentialsE m ρ c),
      (h c).2.2.2.1.trans (currentsE m ρ c), (h c).2.2.2.2.1.trans (potentialsI m ρ c),
      (h c).2.2.2.2.2.1.trans (currentsI m ρ c), (h c).2.2.2.2.2.2⟩)
    (Cert.KernelIdeal.Launch.run_named m ρ)

end Cert.KernelIdeal.Value

end
-- ==== Proof.lean ====
/-
  One step of a balanced network of leaky integrate-and-fire neurons: the kernel program against the reference.

  Both programs take the input, the two populations' potentials, currents and previous spikes, and six weight matrices,
  and return each population's spikes, new potentials and new currents. Per neuron the potential leaks one step,
  v + κ·((0 − v) + s), the neuron fires where that exceeds 1, the potential is kept where it did not fire and reset to 0
  where it did, and the current decays by a fixed factor and gains the drive: the input against its weights plus the
  excitatory spikes against the rectified excitatory weights minus the inhibitory spikes against the rectified
  inhibitory weights, each a matrix product contracting the second axis of both matrices.

  The kernel program narrows activations and weights to 16 bits and runs one tiled region per population; at the ideal
  instance the narrowing is the identity, a tiled product into a zero accumulator is the plain sum, and the tiles of each
  output cover its array, so each result is the specification's function of the arguments (Proof/KernelValue.lean, over
  Proof/KernelE.lean, Proof/KernelI.lean, Proof/KernelDrive.lean, Proof/KernelBoundary.lean and the run of
  Proof/KernelLaunch.lean). The reference computes the same functions with whole-array operations
  (Proof/RefSide.lean). Two laws join the sides: the drive (a + b) − c is a + (b − c) on the extended reals, by
  associativity, with no finiteness needed; and a comparison's bit is the same number read unsigned or widened and read
  signed (Proof/LifSpec.lean). The ideal pass rewrote nothing, so the kernel's idealization is its own text.
-/
import proofs.«128312_j18176301596897_1_alg».proof.Defs
import proofs.«128312_j18176301596897_1_alg».proof.Proof.Gen.Kernel
import proofs.«128312_j18176301596897_1_alg».proof.Proof.Gen.Kernel.Skeleton
import proofs.«128312_j18176301596897_1_alg».proof.Proof.Gen.Kernel.Launch
import proofs.«128312_j18176301596897_1_alg».proof.Proof.Gen.Kernel.Points
import proofs.«128312_j18176301596897_1_alg».proof.Proof.Gen.Kernel.Frame
import proofs.«128312_j18176301596897_1_alg».proof.Proof.Gen.KernelIdeal
import proofs.«128312_j18176301596897_1_alg».proof.Proof.Gen.KernelIdeal.Skeleton
import proofs.«128312_j18176301596897_1_alg».proof.Proof.Gen.KernelIdeal.Launch
import proofs.«128312_j18176301596897_1_alg».proof.Proof.Gen.KernelIdeal.Points
import proofs.«128312_j18176301596897_1_alg».proof.Proof.Gen.KernelIdeal.Frame
import proofs.«128312_j18176301596897_1_alg».proof.Proof.Gen.ReferenceIdeal
import proofs.«128312_j18176301596897_1_alg».proof.Proof.Gen.Pre_finite_inputs
import proofs.«128312_j18176301596897_1_alg».proof.Proof.Gen.ReferenceIdeal.Run
import proofs.«128312_j18176301596897_1_alg».proof.Proof.Gen.ReferenceIdeal.Read
import proofs.«128312_j18176301596897_1_alg».proof.Proof.LifSpec
import proofs.«128312_j18176301596897_1_alg».proof.Proof.RefSide
import proofs.«128312_j18176301596897_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the results dropped. -/
theorem frame_reference : Cert.frame_ReferenceIdeal := fun m ρ _ =>
  (θ_run Cert.ReferenceIdeal.defs _ _).mono (fun _ h c => (h c).2.2.2.2.2.2)
    (Cert.ReferenceIdeal.Value.run (F := Ideal) m ρ)

/-- From memories that agree on the thirteen arguments both programs end with the six results at the specification's
    functions of those arguments: the kernel's run states them so, and the reference's run states each result as a
    term that is that function of its own arguments, which are the kernel's. -/
theorem algebraic : Cert.algebraic_KernelIdeal_ReferenceIdeal := by
  intro m ρ m' ρ' _ hagree
  refine ⟨fun c => Cert.Lif.spikes Cert.Lif.rateE (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Lif.spikes Cert.Lif.rateI (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Lif.potentials Cert.Lif.rateE (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Lif.currents (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg7)) (m ((c.tc : Thread Cert.KernelIdeal.nD Cert.KernelIdeal.τ).loc Cert.KernelIdeal.main_arg9)) (m ((c.tc : Thread Cert.KernelIdeal.nD Cert.KernelIdeal.τ).loc Cert.KernelIdeal.main_arg2)),
    fun c => Cert.Lif.potentials Cert.Lif.rateI (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Lif.currents (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg12)) (m ((c.tc : Thread Cert.KernelIdeal.nD Cert.KernelIdeal.τ).loc Cert.KernelIdeal.main_arg8)) (m ((c.tc : Thread Cert.KernelIdeal.nD Cert.KernelIdeal.τ).loc Cert.KernelIdeal.main_arg10)) (m ((c.tc : Thread Cert.KernelIdeal.nD Cert.KernelIdeal.τ).loc Cert.KernelIdeal.main_arg4)),
    Cert.KernelIdeal.Value.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12⟩ := hagree c
  obtain ⟨h0, h1, h2, h3, h4, h5, hargs⟩ := h c
  refine ⟨?_, ?_, ?_, ?_, ?_, ?_, hargs⟩
  · rw [h0, Cert.ReferenceIdeal.Read.val_main_v32_eq, Cert.ReferenceIdeal.RefValue.spikesE_eq, a1, a2]
  · rw [h1, Cert.ReferenceIdeal.Read.val_main_v52_eq, Cert.ReferenceIdeal.RefValue.spikesI_eq, a3, a4]
  · rw [h2, Cert.ReferenceIdeal.Read.val_main_v38_eq, Cert.ReferenceIdeal.RefValue.potentialsE_eq, a1, a2]
  · rw [h3, Cert.ReferenceIdeal.Read.val_main_v39_eq, Cert.ReferenceIdeal.RefValue.currentsE_eq, a0, a2, a5, a6, a7, a9, a11]
  · rw [h4, Cert.ReferenceIdeal.Read.val_main_v58_eq, Cert.ReferenceIdeal.RefValue.potentialsI_eq, a3, a4]
  · rw [h5, Cert.ReferenceIdeal.Read.val_main_v59_eq, Cert.ReferenceIdeal.RefValue.currentsI_eq, a0, a4, a5, a6, a8, a10, a12]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
